-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608 : Shape := ⟨1, ![8388608]⟩
abbrev S_ : Shape := ⟨0, ![]⟩

class Facts : Prop where
  bcast_S_S8388608 : S_.BroadcastsInDim S8388608 (![] : Fin 0 → Fin S8388608.rank)
  reducesTo_S8388608_S_d0 : S8388608.ReducesTo [0] S_
  h_S_ : 0 < S_.numel

variable [Facts]

def fn {F : FTy → Type} [FloatOps F] (main_arg0 : FVec F S8388608 .f32) (main_arg1 : FVec F S8388608 .f32) (main_arg2 : IVec S8388608 32) : IVec S_ 1 :=
  let main_v0 : FVec F S8388608 .f32 := Host.absf main_arg0
  let main_cst : FVec F S_ .f32 := constant S_ .f32 0x7F800000#32
  let main_v1 : FVec F S8388608 .f32 := broadcastInDim S8388608 ![] bcast_S_S8388608 main_cst
  let main_v2 : IVec S8388608 1 := cmpf .olt main_v0 main_v1
  let main_c : IVec S_ 1 := constantI S_ 1 1#1
  let main_v3 : IVec S_ 1 := (fun x v => Host.reduce IntOp.andi x v reducesTo_S8388608_S_d0 h_S_) main_v2 main_c
  let main_v4 : FVec F S8388608 .f32 := Host.absf main_arg1
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  main_v8
-- ==== Kernel.lean ====
abbrev S8388608 : Shape := ⟨1, ![8388608]⟩
abbrev S65536x128 : Shape := ⟨2, ![65536, 128]⟩
abbrev S2x8x128 : Shape := ⟨3, ![2, 8, 128]⟩
abbrev S1x1x1 : Shape := ⟨3, ![1, 1, 1]⟩
abbrev S_ : Shape := ⟨0, ![]⟩
abbrev S512x128 : Shape := ⟨2, ![512, 128]⟩
abbrev S1x8x128 : Shape := ⟨3, ![1, 8, 128]⟩
abbrev S8x2048 : Shape := ⟨2, ![8, 2048]⟩
abbrev S1x2048 : Shape := ⟨2, ![1, 2048]⟩
abbrev S4x256 : Shape := ⟨2, ![4, 256]⟩
abbrev S8x128 : Shape := ⟨2, ![8, 128]⟩
abbrev S128x8 : Shape := ⟨2, ![128, 8]⟩
abbrev S128x1 : Shape := ⟨2, ![128, 1]⟩
abbrev S256x1 : Shape := ⟨2, ![256, 1]⟩
abbrev S256x2048 : Shape := ⟨2, ![256, 2048]⟩
abbrev S1x128 : Shape := ⟨2, ![1, 128]⟩
abbrev S4x128 : Shape := ⟨2, ![4, 128]⟩
abbrev S8x256 : Shape := ⟨2, ![8, 256]⟩
abbrev S1 : Shape := ⟨1, ![1]⟩
abbrev S1x1 : Shape := ⟨2, ![1, 1]⟩

abbrev nBuf : Space → Nat
  | .hbm => 20
  | .vmem => 9
  | .smem => 0
  | _ => 0

abbrev bufTy : (tb : Table) → Fin (tcTables nBuf tb) → BufTy
  | .hbm, ⟨0, _⟩ => ⟨S8388608, .f32⟩
  | .hbm, ⟨1, _⟩ => ⟨S8388608, .f32⟩
  | .hbm, ⟨2, _⟩ => ⟨S8388608, .i32⟩
  | .hbm, ⟨3, _⟩ => ⟨S65536x128, .f32⟩
  | .hbm, ⟨4, _⟩ => ⟨S65536x128, .f32⟩
  | .hbm, ⟨5, _⟩ => ⟨S65536x128, .i32⟩
  | .hbm, ⟨6, _⟩ => ⟨S2x8x128, .f32⟩
  | .hbm, ⟨7, _⟩ => ⟨S1x1x1, .f32⟩
  | .hbm, ⟨8, _⟩ => ⟨S_, .f32⟩
  | .hbm, ⟨9, _⟩ => ⟨S1x1x1, .f32⟩
  | .hbm, ⟨10, _⟩ => ⟨S_, .f32⟩
  | .hbm, ⟨11, _⟩ => ⟨S_, .f32⟩
  | .hbm, ⟨12, _⟩ => ⟨S1x1x1, .f32⟩
  | .hbm, ⟨13, _⟩ => ⟨S_, .f32⟩
  | .hbm, ⟨14, _⟩ => ⟨S1x1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .i32⟩
  | .local _ .vmem, ⟨5, _⟩ => ⟨S512x128, .i32⟩
  | .local _ .vmem, ⟨6, _⟩ => ⟨S1x8x128, .f32⟩
  | .local _ .vmem, ⟨7, _⟩ => ⟨S1x8x128, .f32⟩
  | .local _ .vmem, ⟨8, _⟩ => ⟨S8x2048, .f32⟩
  | _, _ => ⟨S8388608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_cst : Ref sig .tc := ⟨.hbm, 17, rfl⟩
abbrev main_call0_v14 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 128], ![false, false]⟩

@[reducible] def k0_t1_loop : Scf.Loop 32 :=
  let c0_i32_2 : BitVec 32 := 0#32
  let c64_i32 : BitVec 32 := 64#32
  let v9 : BitVec 32 := Scalar.addi c0_i32_2 c64_i32
  let c1_i32 : BitVec 32 := 1#32
  ⟨c0_i32_2, v9, c1_i32⟩
def k0_mult1 (k0_t1 : Fin k0_t1_loop.trips) : BitVec 32 :=
  let c0_i32_5 : BitVec 32 := 0#32
  let c0_i32_2 : BitVec 32 := 0#32
  let c1_i32 : BitVec 32 := 1#32
  let arg7 : BitVec 32 := Scf.iv c0_i32_2 c1_i32 k0_t1
  let c8_i32 : BitVec 32 := 8#32
  let v13 : BitVec 32 := Scalar.muli arg7 c8_i32
  let v14 : BitVec 32 := Scalar.addi c0_i32_5 v13
  v14
def k0_off1 (k0_t1 : Fin k0_t1_loop.trips) : Fin 2 → Nat :=
  let c0_i32_5 : BitVec 32 := 0#32
  let c0_i32_2 : BitVec 32 := 0#32
  let c1_i32 : BitVec 32 := 1#32
  let arg7 : BitVec 32 := Scf.iv c0_i32_2 c1_i32 k0_t1
  let c8_i32 : BitVec 32 := 8#32
  let v13 : BitVec 32 := Scalar.muli arg7 c8_i32
  let v14 : BitVec 32 := Scalar.addi c0_i32_5 v13
  let v15 : BitVec 32 := v14
  let v16 : Index := Scalar.indexCast v15
  let c0 : Index := 0#32
  ![v16.toNat, 0]
def k0_cond2 (i : grid0.Coords) : BitVec 1 :=
  let arg1 : BitVec 32 := BitVec.ofNat 32 (i 1).val
  let c127_i32 : BitVec 32 := 127#32
  let v10 : BitVec 1 := Scalar.cmpi .eq arg1 c127_i32
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8388608_S65536x128 : S8388608.ShapeCasts S65536x128
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  slices_S2x8x128_S1x1x1_0_1_0 : S2x8x128.Slices ![0, 1, 0] S1x1x1
  slices_S2x8x128_S1x1x1_1_1_0 : S2x8x128.Slices ![1, 1, 0] S1x1x1
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  iota_S1x2048_d1_w32 : S1x2048.Iotas .tc 32 [1]
  h_S8x128 : 0 < S8x128.numel
  shapeCasts_S8x128_S8x128 : S8x128.ShapeCasts S8x128
  transposes_S8x128_p1_0_S128x8 : S8x128.Transposes [1, 0] S128x8
  slices_S128x8_o0_0_S128x1 : S128x8.Slices ![0, 0] S128x1
  slices_S128x8_o0_1_S128x1 : S128x8.Slices ![0, 1] S128x1
  concatenates_S128x1_S128x1_S256x1_d0 : Shape.Concatenates [S128x1, S128x1] S256x1 0
  broadcasts_S256x1_S256x2048 : S256x1.Broadcasts S256x2048
  broadcasts_S1x2048_S256x2048 : S1x2048.Broadcasts S256x2048
  natLt_1_32 : 1 < 32
  bitsLt_bf16_f32 : FTy.bits .bf16 < FTy.bits .f32
  slices_S8x128_o0_0_S1x128 : S8x128.Slices ![0, 0] S1x128
  concatenates_S1x128_S1x128_S1x128_S1x128_S4x128_d0 : Shape.Concatenates [S1x128, S1x128, S1x128, S1x128] S4x128 0
  slices_S8x128_o1_0_S1x128 : S8x128.Slices ![1, 0] S1x128
  concatenates_S4x128_S4x128_S4x256_d1 : Shape.Concatenates [S4x128, S4x128] S4x256 1
  concatenates_S4x256_S4x256_S8x256_d0 : Shape.Concatenates [S4x256, S4x256] S8x256 0
  slices_S128x8_o0_2_S128x1 : S128x8.Slices ![0, 2] S128x1
  slices_S128x8_o0_3_S128x1 : S128x8.Slices ![0, 3] S128x1
  slices_S8x128_o2_0_S1x128 : S8x128.Slices ![2, 0] S1x128
  slices_S8x128_o3_0_S1x128 : S8x128.Slices ![3, 0] S1x128
  slices_S128x8_o0_4_S128x1 : S128x8.Slices ![0, 4] S128x1
  slices_S128x8_o0_5_S128x1 : S128x8.Slices ![0, 5] S128x1
  slices_S8x128_o4_0_S1x128 : S8x128.Slices ![4, 0] S1x128
  slices_S8x128_o5_0_S1x128 : S8x128.Slices ![5, 0] S1x128
  slices_S128x8_o0_6_S128x1 : S128x8.Slices ![0, 6] S128x1
  slices_S128x8_o0_7_S128x1 : S128x8.Slices ![0, 7] S128x1
  slices_S8x128_o6_0_S1x128 : S8x128.Slices ![6, 0] S1x128
  slices_S8x128_o7_0_S1x128 : S8x128.Slices ![7, 0] S1x128
  inb_S8x2048_S1x2048_0_0 : ∀ a, (![0, 0] : Fin 2 → Nat) a + S1x2048.size a ≤ S8x2048.size a
  h_S1x2048 : 0 < S1x2048.numel
  inb_S8x2048_S1x2048_1_0 : ∀ a, (![1, 0] : Fin 2 → Nat) a + S1x2048.size a ≤ S8x2048.size a
  inb_S8x2048_S1x2048_2_0 : ∀ a, (![2, 0] : Fin 2 → Nat) a + S1x2048.size a ≤ S8x2048.size a
  inb_S8x2048_S1x2048_3_0 : ∀ a, (![3, 0] : Fin 2 → Nat) a + S1x2048.size a ≤ S8x2048.size a
  reduces_S1x2048_S1 : S1x2048.Reduces [1] S1
  shapeCasts_S1_S1x1 : S1.ShapeCasts S1x1
  inb_S1x8x128_S1x8x128_0_0_0 : ∀ a, (![0, 0, 0] : Fin 3 → Nat) a + S1x8x128.size a ≤ S1x8x128.size a
  h_S1x8x128 : 0 < S1x8x128.numel
  shapeCasts_S1x1_S1x1x1 : S1x1.ShapeCasts S1x1x1
  inb_S1x8x128_S1x1x1_0_0_0 : ∀ a, (![0, 0, 0] : Fin 3 → Nat) a + S1x1x1.size a ≤ S1x8x128.size a
  h_S1x1x1 : 0 < S1x1x1.numel
  inb_S1x8x128_S1x1x1_0_1_0 : ∀ a, (![0, 1, 0] : Fin 3 → Nat) a + S1x1x1.size a ≤ S1x8x128.size a
  dot_S8x256_S256x2048_S8x2048_1_0_0_1_n_n_wf : DotDims.WF S8x256 S256x2048 S8x2048 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x128.size a ≤ S512x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S65536x128.size a
  hwx0_0 : ∀ i : grid0.Coords, EltTy.bits .f32 = 32 ∨ (Rect.block (s := S65536x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S65536x128.size a
  hwx0_1 : ∀ i : grid0.Coords, EltTy.bits .f32 = 32 ∨ (Rect.block (s := S65536x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S65536x128.size a
  hwx0_2 : ∀ i : grid0.Coords, EltTy.bits .i32 = 32 ∨ (Rect.block (s := S65536x128) S512x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

def dot_S8x256_S256x2048_S8x2048_1_0_0_1_n_n : DotDims S8x256 S256x2048 S8x2048 where
  lhsContracting := [1]
  rhsContracting := [0]
  lhsNonContracting := [0]
  rhsNonContracting := [1]
  lhsBatch := []
  rhsBatch := []
  wf := dot_S8x256_S256x2048_S8x2048_1_0_0_1_n_n_wf

abbrev win0_0 : Pipeline.Window sig grid0 :=
  Pipeline.Window.ofSpec (Memref.whole main_call0_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8388608 : Shape := ⟨1, ![8388608]⟩
abbrev S_ : Shape := ⟨0, ![]⟩
abbrev S4096 : Shape := ⟨1, ![4096]⟩
abbrev S8388608x1 : Shape := ⟨2, ![8388608, 1]⟩

abbrev nBuf : Space → Nat
  | .hbm => 73
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S8388608, .f32⟩
  | .hbm, ⟨2, _⟩ => ⟨S8388608, .i32⟩
  | .hbm, ⟨3, _⟩ => ⟨S_, .f32⟩
  | .hbm, ⟨4, _⟩ => ⟨S8388608, .f32⟩
  | .hbm, ⟨5, _⟩ => ⟨S_, .f32⟩
  | .hbm, ⟨6, _⟩ => ⟨S4096, .f32⟩
  | .hbm, ⟨7, _⟩ => ⟨S8388608x1, .i32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S8388608x1, .i32⟩
  | .hbm, ⟨12, _⟩ => ⟨S4096, .f32⟩
  | .hbm, ⟨13, _⟩ => ⟨S8388608, .f32⟩
  | .hbm, ⟨14, _⟩ => ⟨S_, .f32⟩
  | .hbm, ⟨15, _⟩ => ⟨S4096, .f32⟩
  | .hbm, ⟨16, _⟩ => ⟨S8388608x1, .i32⟩
  | .hbm, ⟨17, _⟩ => ⟨S4096, .f32⟩
  | .hbm, ⟨18, _⟩ => ⟨S8388608, .f32⟩
  | .hbm, ⟨19, _⟩ => ⟨S8388608, .f32⟩
  | .hbm, ⟨20, _⟩ => ⟨S_, .f32⟩
  | .hbm, ⟨21, _⟩ => ⟨S4096, .f32⟩
  | .hbm, ⟨22, _⟩ => ⟨S8388608x1, .i32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .i1⟩
  | .hbm, ⟨34, _⟩ => ⟨S_, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .i1⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .i1⟩
  | .hbm, ⟨61, _⟩ => ⟨S_, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S4096, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v28 : Ref sig .tc := ⟨.hbm, 49, rfl⟩
abbrev main_cst_10 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_11 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_12 : Ref sig .tc := ⟨.hbm, 58, rfl⟩
abbrev main_v35 : Ref sig .tc := ⟨.hbm, 59, rfl⟩
abbrev main_v36 : Ref sig .tc := ⟨.hbm, 60, rfl⟩
abbrev main_cst_13 : Ref sig .tc := ⟨.hbm, 61, rfl⟩
abbrev main_call4_v0 : Ref sig .tc := ⟨.hbm, 62, rfl⟩
abbrev main_call4_v1 : Ref sig .tc := ⟨.hbm, 63, rfl⟩
abbrev main_v37 : Ref sig .tc := ⟨.hbm, 64, rfl⟩
abbrev main_v38 : Ref sig .tc := ⟨.hbm, 65, rfl⟩
abbrev main_cst_14 : Ref sig .tc := ⟨.hbm, 66, rfl⟩
abbrev main_v39 : Ref sig .tc := ⟨.hbm, 67, rfl⟩
abbrev main_cst_15 : Ref sig .tc := ⟨.hbm, 68, rfl⟩
abbrev main_v40 : Ref sig .tc := ⟨.hbm, 69, rfl⟩
abbrev main_cst_16 : Ref sig .tc := ⟨.hbm, 70, rfl⟩
abbrev main_v41 : Ref sig .tc := ⟨.hbm, 71, rfl⟩
abbrev main_v42 : Ref sig .tc := ⟨.hbm, 72, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S_S4096 : S_.BroadcastsInDim S4096 (![] : Fin 0 → Fin S4096.rank)
  bcast_S8388608_S8388608x1_0 : S8388608.BroadcastsInDim S8388608x1 (![0] : Fin 1 → Fin S8388608x1.rank)
  reducesTo_S4096_S_d0 : S4096.ReducesTo [0] S_
  h_S_ : 0 < S_.numel
  scatter_S4096_S8388608x1_S8388608_n_0_0_1_wf : ScatterDims.WF S4096 S8388608x1 S8388608 [] [0] [0] 1

variable [Facts₀]

def scatter_S4096_S8388608x1_S8388608_n_0_0_1 : ScatterDims S4096 S8388608x1 S8388608 where
  updateWindowDims := []
  insertedWindowDims := [0]
  scatterDimsToOperandDims := [0]
  indexVectorDim := 1
  wf := scatter_S4096_S8388608x1_S8388608_n_0_0_1_wf

class Facts : Prop extends Facts₀ where

variable [Facts]
-- ==== Proof.Spec.lean ====
/-
  The mathematics both programs compute, stated once over the three argument arrays.

  A sample `n` has a prediction `p n`, a target `t n` and a station word `w n`. For a station `s` the loss
  needs four sums over the samples of that station: the count, `∑ t`, `∑ t²` and `∑ (t - p)²`. Both programs
  form them as `∑ n, quantity r (t n) (p n) * member (w n) s`: the factor `member` is `1` on the samples whose
  word is station `s` and `0` elsewhere, so a sample whose word names no station adds to none of them.
  The samples are laid out as 65536 rows of 128 lanes; `stat … R` is the sum over the first `R` rows, which is the
  form an accumulation row chunk by row chunk steps through, and at `R = 65536` it is the sum over all samples.
  From the four sums a station's loss is `stationValue`, and whether it is present `stationPresent`; the result
  is the sum of the losses over the sum of the presences (at least one).
-/
import Idealize.ShloMosaic.PureOps.Ideal
import Idealize.ShloMosaic.Lib.ValueIdx

noncomputable section

namespace Cert.SegStats

open Idealize.ShloMosaic Idealize.ShloMosaic.ValueIdx
open scoped BigOperators

/-- The extended real a 32-bit float word denotes. -/
abbrev lit (b : BitVec 32) : EReal := FloatOps.ofBits (F := Ideal) .f32 b

/-- Row `r` of the per-sample data: the constant one, the target, its square, the squared residual; the rows from
    the fifth on are zero padding. -/
def quantity (r : ℕ) (t p : EReal) : EReal :=
  match r with
  | 0 => lit 0x3F800000#32
  | 1 => t
  | 2 => t * t
  | 3 => (t - p) * (t - p)
  | _ => 0

/-- `1` when the sample's station word is station `s`, else `0`. -/
def member (w : BitVec 32) (s : ℕ) : EReal := if w = BitVec.ofNat 32 s then 1 else 0

theorem member_of_eq {w : BitVec 32} {s : ℕ} (h : w = BitVec.ofNat 32 s) : member w s = 1 := if_pos h
theorem member_of_ne {w : BitVec 32} {s : ℕ} (h : w ≠ BitVec.ofNat 32 s) : member w s = 0 := if_neg h

/-- The flat position of lane `l` of row `j`. -/
def sample (j : Fin 65536) (l : Fin 128) : (⟨1, ![8388608]⟩ : Shape).Idx :=
  ix1 ⟨128 * j.val + l.val, by have := j.isLt; have := l.isLt; omega⟩

section Stats
variable (x0 x1 : (⟨1, ![8388608]⟩ : Shape).Idx → EReal) (x2 : (⟨1, ![8388608]⟩ : Shape).Idx → BitVec 32)

/-- What row `j` adds to sum `r` of station `s` (nothing past the last row). -/
def rowStat (r s j : ℕ) : EReal :=
  if h : j < 65536 then
    ∑ l : Fin 128, quantity r (x1 (sample ⟨j, h⟩ l)) (x0 (sample ⟨j, h⟩ l)) * member (x2 (sample ⟨j, h⟩ l)) s
  else 0

/-- Sum `r` of station `s` over the first `R` rows. -/
def stat (r s R : ℕ) : EReal := ∑ j ∈ Finset.range R, rowStat x0 x1 x2 r s j

theorem stat_zero (r s : ℕ) : stat x0 x1 x2 r s 0 = 0 := by simp [stat]

theorem stat_add (r s R k : ℕ) :
    stat x0 x1 x2 r s (R + k) = stat x0 x1 x2 r s R + ∑ d ∈ Finset.range k, rowStat x0 x1 x2 r s (R + d) := by
  unfold stat; exact Finset.sum_range_add _ _ _

theorem rowStat_of_lt (r s : ℕ) (j : Fin 65536) :
    rowStat x0 x1 x2 r s j.val
      = ∑ l : Fin 128, quantity r (x1 (sample j l)) (x0 (sample j l)) * member (x2 (sample j l)) s := by
  unfold rowStat; rw [dif_pos j.isLt]

end Stats

/-- A station's loss from its four sums, in the order the operations are applied: the mean squared residual
    when the station has fewer than five samples or no spread, else one minus the clipped R², and nothing for a
    station with no sample. -/
def stationValue (cnt st st2 ssr : EReal) : EReal :=
  let one : EReal := lit 0x3F800000#32
  let safe : EReal := FloatOps.maximumf (F := Ideal) (φ := .f32) cnt one
  let mse : EReal := FloatOps.hostDivf (F := Ideal) (φ := .f32) ssr safe
  let tot : EReal := FloatOps.subf (F := Ideal) (φ := .f32) st2
    (FloatOps.hostDivf (F := Ideal) (φ := .f32) (FloatOps.mulf (F := Ideal) (φ := .f32) st st) safe)
  let ok : BitVec 1 := FloatOps.cmpf (F := Ideal) (φ := .f32) .ogt tot (lit 0x322BCC77#32)
  let r2 : EReal := FloatOps.subf (F := Ideal) (φ := .f32) one
    (FloatOps.hostDivf (F := Ideal) (φ := .f32) ssr (Scalar.select ok tot one))
  let clipped : EReal := FloatOps.minimumf (F := Ideal) (φ := .f32) one
    (FloatOps.maximumf (F := Ideal) (φ := .f32) (lit 0xBF800000#32) r2)
  let big : EReal := Scalar.select ok (FloatOps.subf (F := Ideal) (φ := .f32) one clipped) mse
  let per : EReal := Scalar.select (FloatOps.cmpf (F := Ideal) (φ := .f32) .oge cnt (lit 0x40A00000#32)) big mse
  Scalar.select (FloatOps.cmpf (F := Ideal) (φ := .f32) .ogt cnt (lit 0x00000000#32)) per (lit 0x00000000#32)

/-- `1` for a station with a sample, else `0`. -/
def stationPresent (cnt : EReal) : EReal :=
  FloatOps.uitofp (F := Ideal) .f32 (FloatOps.cmpf (F := Ideal) (φ := .f32) .ogt cnt (lit 0x00000000#32))

end Cert.SegStats

end
-- ==== Proof.RefSide.lean ====
/-
  The reference's result as one expression of the three argument arrays: its four scatter-additions are the four
  per-station sums over all samples, and the rest of its operations are the per-station loss, the two sums over
  the 4096 stations and the quotient.
-/
import proofs.«412645_j54546084659704_2_alg».proof.Proof.RefRead
import proofs.«412645_j54546084659704_2_alg».proof.Proof.Spec
import Idealize.ShloMosaic.Lib.ValueIdx
import Idealize.ShloMosaic.Lib.ValueIdxRank1
import Idealize.ShloMosaic.Lib.Pipeline.Value
import Idealize.ShloMosaic.PureOps.Ideal.Laws

noncomputable section

namespace Cert.ReferenceIdeal.RefSide

open Cert.ReferenceIdeal Cert.ReferenceIdeal.Gen Cert.ReferenceIdeal.ReadP Cert.SegStats Idealize.ShloMosaic Idealize.ShloMosaic.ValueIdx
open scoped BigOperators

variable (x0 x1 : (⟨S8388608, .f32⟩ : BufTy).Contents (Elt Ideal)) (x2 : (⟨S8388608, .i32⟩ : BufTy).Contents (Elt Ideal))

/-- The loss of station `s` from its four sums over all 65536 rows. -/
abbrev lossAt (s : ℕ) : EReal :=
  stationValue (stat x0 x1 x2 0 s 65536) (stat x0 x1 x2 1 s 65536) (stat x0 x1 x2 2 s 65536) (stat x0 x1 x2 3 s 65536)

/-- Whether station `s` has a sample. -/
abbrev presentAt (s : ℕ) : EReal := stationPresent (stat x0 x1 x2 0 s 65536)

/-- The scatter-addition's dimension numbers: one operand axis, indexed by the one scatter index. -/
abbrev stationScatter := scatter_S4096_S8388608x1_S8388608_n_0_0_1

/-- A 32-bit word whose signed value is a station number below 4096 is that number's word, and conversely. -/
theorem word_iff (w : BitVec 32) (s : Fin 4096) :
    (0 ≤ w.toInt ∧ w.toInt < 4096 ∧ w.toInt.toNat = s.val) ↔ w = BitVec.ofNat 32 s.val := by
  have hw := w.isLt
  have hs := s.isLt
  have ht := BitVec.toInt_eq_toNat_cond w
  constructor
  · rintro ⟨h0, h1, h2⟩
    apply BitVec.eq_of_toNat_eq
    rw [BitVec.toNat_ofNat]
    split at ht <;> omega
  · intro h
    have hn : w.toNat = s.val := by rw [h, BitVec.toNat_ofNat]; omega
    split at ht <;> omega

/-- The window of sample `n` starts at its station word read signed. -/
theorem start_eq (n : S8388608.Idx) (a : Fin 1) :
    stationScatter.start n (val_main_v2 (F := Ideal) x2) a = (x2 n).toInt := by
  obtain rfl : a = 0 := Subsingleton.elim _ _
  unfold ScatterDims.start
  rw [dif_pos (by decide), val_main_v2_apply]
  congr 2
  funext b
  obtain rfl : b = 0 := Subsingleton.elim _ _
  rfl

/-- The one operand axis is an inserted one: the window coordinate is zero. -/
theorem window_eq (n : S8388608.Idx) (a : Fin 1) : stationScatter.window n a = 0 := by
  obtain rfl : a = 0 := Subsingleton.elim _ _
  unfold ScatterDims.window
  rw [dif_neg (by decide)]

/-- A sample's update lands on station `s` exactly when its station word is the word of `s`: the start is the
    word read signed and not clamped, so a word outside `0 … 4095` lands nowhere. -/
theorem resultIdx_iff (n : S8388608.Idx) (s : Fin 4096) :
    stationScatter.resultIdx? n (val_main_v2 (F := Ideal) x2) = some (ix1 s) ↔ x2 n = BitVec.ofNat 32 s.val := by
  have hs : ∀ a : Fin 1, stationScatter.start n (val_main_v2 (F := Ideal) x2) a + (stationScatter.window n a : Int) = (x2 n).toInt := by
    intro a; rw [start_eq, window_eq]; simp
  rw [← word_iff]
  unfold ScatterDims.resultIdx?
  constructor
  · intro h
    split at h
    · rename_i hc
      have h0 := congrArg Fin.val (congrFun (Option.some.inj h) (0 : Fin 1))
      have hc0 := hc (0 : Fin 1)
      change (stationScatter.start n (val_main_v2 (F := Ideal) x2) (0 : Fin 1) + (stationScatter.window n (0 : Fin 1) : Int)).toNat = s.val at h0
      change _ ∧ _ < (4096 : Int) at hc0
      rw [hs 0] at h0 hc0
      exact ⟨hc0.1, hc0.2, h0⟩
    · exact absurd h (by simp)
  · rintro ⟨h0, h1, h2⟩
    have hc : ∀ a : Fin S4096.rank, 0 ≤ stationScatter.start n (val_main_v2 (F := Ideal) x2) a + (stationScatter.window n a : Int) ∧
        stationScatter.start n (val_main_v2 (F := Ideal) x2) a + (stationScatter.window n a : Int) < (S4096.size a : Int) := by
      intro a
      obtain rfl : a = (0 : Fin 1) := Subsingleton.elim _ _
      change _ ∧ _ < (4096 : Int)
      rw [hs 0]
      exact ⟨h0, h1⟩
    rw [dif_pos hc]
    congr 1
    funext a
    obtain rfl : a = (0 : Fin 1) := Subsingleton.elim _ _
    apply Fin.ext
    change (stationScatter.start n (val_main_v2 (F := Ideal) x2) (0 : Fin 1) + (stationScatter.window n (0 : Fin 1) : Int)).toNat = s.val
    rw [hs 0]
    exact h2

/-- At the extended reals the scatter-addition is the exact sum: station `s` receives its initial value plus every
    sample's update times that sample's membership of `s`. -/
theorem scatter_at (z : FVec Ideal S4096 .f32) (upd : FVec Ideal S8388608 .f32) (s : Fin 4096) :
    Host.scatterAdd (F := Ideal) stationScatter z (val_main_v2 (F := Ideal) x2) upd (ix1 s)
      = z (ix1 s) + ∑ n : S8388608.Idx, upd n * member (x2 n) s.val := by
  change Ideal.hostScatterAdd stationScatter z (val_main_v2 (F := Ideal) x2) upd (ix1 s) = _
  unfold Ideal.hostScatterAdd
  refine congrArg (fun t => z (ix1 s) + t) ?_
  rw [Finset.sum_filter]
  refine Finset.sum_congr rfl fun n _ => ?_
  unfold member
  rw [mul_ite, mul_one, mul_zero]
  exact if_congr (resultIdx_iff x2 n s) rfl rfl

/-- The samples are the lanes of the rows: `(j, l) ↦ 128 j + l` is a bijection onto the flat positions. -/
def sampleEquiv : Fin 65536 × Fin 128 ≃ S8388608.Idx where
  toFun p := sample p.1 p.2
  invFun n :=
    (⟨(n 0).val / 128, by have h : (n 0).val < 8388608 := (n 0).isLt; omega⟩,
     ⟨(n 0).val % 128, Nat.mod_lt _ (by norm_num)⟩)
  left_inv p := by
    obtain ⟨j, l⟩ := p
    have hj := j.isLt
    have hl := l.isLt
    refine Prod.ext (Fin.ext ?_) (Fin.ext ?_)
    · change (128 * j.val + l.val) / 128 = j.val
      omega
    · change (128 * j.val + l.val) % 128 = l.val
      omega
  right_inv n := by
    refine (eq_ix1 _).trans ((congrArg ix1 (Fin.ext ?_)).trans (eq_ix1 n).symm)
    change 128 * ((n 0).val / 128) + (n 0).val % 128 = (n 0).val
    omega

/-- A sum over all samples is the sum over the rows of the sums over the lanes. -/
theorem sum_samples (f : S8388608.Idx → EReal) :
    ∑ n : S8388608.Idx, f n = ∑ j : Fin 65536, ∑ l : Fin 128, f (sample j l) := by
  rw [← Equiv.sum_comp sampleEquiv f, Fintype.sum_prod_type]
  rfl

/-- The sum over all 65536 rows, row by row. -/
theorem stat_all (r s : ℕ) :
    stat x0 x1 x2 r s 65536
      = ∑ j : Fin 65536, ∑ l : Fin 128, quantity r (x1 (sample j l)) (x0 (sample j l)) * member (x2 (sample j l)) s := by
  unfold stat
  rw [Finset.sum_range]
  exact Finset.sum_congr rfl fun j _ => rowStat_of_lt x0 x1 x2 r s j

/-- A scatter-addition from zero whose updates are quantity `r` of the samples is sum `r` over all rows. -/
theorem scatter_stat (r : ℕ) (z : FVec Ideal S4096 .f32) (upd : FVec Ideal S8388608 .f32)
    (hz : ∀ i, z i = 0) (hu : ∀ n, upd n = quantity r (x1 n) (x0 n)) (s : Fin 4096) :
    Host.scatterAdd (F := Ideal) stationScatter z (val_main_v2 (F := Ideal) x2) upd (ix1 s) = stat x0 x1 x2 r s.val 65536 := by
  rw [scatter_at, hz, zero_add, sum_samples, stat_all]
  exact Finset.sum_congr rfl fun j _ => Finset.sum_congr rfl fun l _ => by rw [hu]

/-- The count: the updates are the constant one, quantity `0`. -/
theorem v3_at (s : Fin 4096) : val_main_v3 (F := Ideal) x2 (ix1 s) = stat x0 x1 x2 0 s.val 65536 := by
  unfold val_main_v3
  refine scatter_stat x0 x1 x2 0 _ _ (fun i => ?_) (fun n => ?_) s
  · rw [val_main_v1_apply, val_main_cst_0_apply]; exact Ideal.ofBits_zero_f32
  · rw [val_main_v0_apply, val_main_cst_apply]; rfl

/-- The sum of the targets: quantity `1`. -/
theorem v6_at (s : Fin 4096) : val_main_v6 (F := Ideal) x1 x2 (ix1 s) = stat x0 x1 x2 1 s.val 65536 := by
  unfold val_main_v6
  refine scatter_stat x0 x1 x2 1 _ _ (fun i => ?_) (fun n => rfl) s
  rw [val_main_v4_apply, val_main_cst_1_apply]; exact Ideal.ofBits_zero_f32

/-- The sum of the squared targets: quantity `2`. -/
theorem v10_at (s : Fin 4096) : val_main_v10 (F := Ideal) x1 x2 (ix1 s) = stat x0 x1 x2 2 s.val 65536 := by
  unfold val_main_v10
  refine scatter_stat x0 x1 x2 2 _ _ (fun i => ?_) (fun n => rfl) s
  rw [val_main_v8_apply, val_main_cst_2_apply]; exact Ideal.ofBits_zero_f32

/-- The sum of the squared residuals: quantity `3`. -/
theorem v15_at (s : Fin 4096) : val_main_v15 (F := Ideal) x0 x1 x2 (ix1 s) = stat x0 x1 x2 3 s.val 65536 := by
  unfold val_main_v15
  refine scatter_stat x0 x1 x2 3 _ _ (fun i => ?_) (fun n => rfl) s
  rw [val_main_v13_apply, val_main_cst_3_apply]; exact Ideal.ofBits_zero_f32

/-- The reference's operations from the four sums to a station's loss, read at a station, are `stationValue`. -/
theorem v37_of (i : S4096.Idx) (cnt st st2 ssr : EReal)
    (h3 : val_main_v3 (F := Ideal) x2 i = cnt) (h6 : val_main_v6 (F := Ideal) x1 x2 i = st)
    (h10 : val_main_v10 (F := Ideal) x1 x2 i = st2) (h15 : val_main_v15 (F := Ideal) x0 x1 x2 i = ssr) :
    val_main_v37 (F := Ideal) x0 x1 x2 i = stationValue cnt st st2 ssr := by
  rw [val_main_v37_apply, val_main_v36_apply, val_main_v35_apply, val_main_cst_12_apply,
    val_main_call4_v1_apply, val_main_call4_v0_apply, val_main_cst_13_apply,
    val_main_v34_apply, val_main_v33_apply, val_main_v32_apply, val_main_cst_11_apply,
    val_main_v31_apply, val_main_v30_apply, val_main_v29_apply, val_main_cst_10_apply,
    val_main_v28_apply, val_main_call1_v4_apply, val_main_call1_v3_apply, val_main_cst_9_apply,
    val_main_call1_v2_apply, val_main_call1_v1_apply, val_main_call1_v0_apply, val_main_cst_8_apply,
    val_main_v27_apply, val_main_v26_apply, val_main_cst_7_apply, val_main_v25_apply,
    val_main_v24_apply, val_main_call0_v1_apply, val_main_call0_v0_apply, val_main_cst_6_apply,
    val_main_v23_apply, val_main_v22_apply, val_main_cst_5_apply, val_main_v21_apply,
    val_main_v20_apply, val_main_v19_apply, val_main_v18_apply, val_main_v17_apply,
    val_main_v16_apply, val_main_cst_4_apply, h3, h6, h10, h15]
  rfl

/-- The reference's presence flag, read at a station, is `stationPresent` of the count. -/
theorem v38_of (i : S4096.Idx) (cnt : EReal) (h3 : val_main_v3 (F := Ideal) x2 i = cnt) :
    val_main_v38 (F := Ideal) x2 i = stationPresent cnt := by
  rw [val_main_v38_apply, val_main_v36_apply, val_main_v35_apply, val_main_cst_12_apply, h3]
  rfl

/-- A station's loss as the reference computes it, from the station's four sums over all rows. -/
theorem v37_at (s : Fin 4096) : val_main_v37 (F := Ideal) x0 x1 x2 (ix1 s) = lossAt x0 x1 x2 s.val :=
  v37_of x0 x1 x2 (ix1 s) (stat x0 x1 x2 0 s.val 65536) (stat x0 x1 x2 1 s.val 65536) (stat x0 x1 x2 2 s.val 65536)
    (stat x0 x1 x2 3 s.val 65536) (v3_at x0 x1 x2 s) (v6_at x0 x1 x2 s) (v10_at x0 x1 x2 s) (v15_at x0 x1 x2 s)

/-- Whether a station is present as the reference computes it, from the station's count over all rows. -/
theorem v38_at (s : Fin 4096) : val_main_v38 (F := Ideal) x2 (ix1 s) = presentAt x0 x1 x2 s.val :=
  v38_of x2 (ix1 s) (stat x0 x1 x2 0 s.val 65536) (v3_at x0 x1 x2 s)

/-- A sum over the stations' indices is the sum over the station numbers. -/
theorem sum_stations (f : S4096.Idx → EReal) : ∑ i : S4096.Idx, f i = ∑ s : Fin 4096, f (ix1 s) :=
  (Equiv.sum_comp (idxEquiv1 (n := 4096)).symm f).symm

/-- The reference's result: the sum of the stations' losses over the number of stations present (at least one). -/
theorem ref_result (j : S_.Idx) :
    val_main_v42 (F := Ideal) x0 x1 x2 j
      = FloatOps.hostDivf (F := Ideal) (φ := .f32)
          (lit 0x00000000#32 + ∑ s : Fin 4096, lossAt x0 x1 x2 s.val)
          (FloatOps.maximumf (F := Ideal) (φ := .f32) (lit 0x00000000#32 + ∑ s : Fin 4096, presentAt x0 x1 x2 s.val)
            (lit 0x3F800000#32)) := by
  have e1 : ∑ i : S4096.Idx, val_main_v37 (F := Ideal) x0 x1 x2 i = ∑ s : Fin 4096, lossAt x0 x1 x2 s.val :=
    (sum_stations _).trans (Finset.sum_congr rfl fun s _ => v37_at x0 x1 x2 s)
  have e2 : ∑ i : S4096.Idx, val_main_v38 (F := Ideal) x2 i = ∑ s : Fin 4096, presentAt x0 x1 x2 s.val :=
    (sum_stations _).trans (Finset.sum_congr rfl fun s _ => v38_at x0 x1 x2 s)
  rw [val_main_v42_apply, val_main_v41_apply, val_main_v40_apply, val_main_v39_apply, val_main_cst_16_apply,
    val_main_cst_14_apply, val_main_cst_15_apply, e1, e2]

end Cert.ReferenceIdeal.RefSide

end
-- ==== Proof.TripDef.lean ====
/-
  One trip of the row-chunk loop as one pure function.

  A trip loads an 8-row chunk of the targets, the predictions and the station words, and the accumulator as it
  finds it, and stores the accumulator plus four matrix products: for each pair of rows, the four data rows of
  the pair (one, target, target squared, squared residual; the two rows side by side along the contraction, four
  zero rows beneath) times the 256 × 2048 table that holds a one where a sample's word is the column's station.
  `tripVal` is that stored value as the body's own operations compose it.
-/
import proofs.«412645_j54546084659704_2_alg».proof.Proof.Gen.KernelIdeal.Skeleton

noncomputable section

namespace Cert.KernelIdeal.Trip

open Cert.KernelIdeal Cert.KernelIdeal.Gen Idealize.ShloMosaic

variable {F : FTy → Type} [FloatOps F]

/-- The accumulator a trip stores, from the chunk of targets `t`, of predictions `p`, of station words `s` and
    the accumulator `a` it loads; `i` is the grid point, whose first coordinate says which half of the stations
    the columns stand for. -/
def tripVal (i : grid0.Coords) (t p : Vec F S8x128 .f32) (s : Vec F S8x128 .i32) (a : Vec F S8x2048 .f32) :
    FVec F S8x2048 .f32 :=
  k0_pay5
    (k0_pay16 (k0_pay2 i) k0_pay3 k0_pay4 (k0_pay8 t) (k0_pay9 t p) (k0_pay10 t) (k0_pay11 s)
      (k0_pay12 (k0_pay2 i) k0_pay3 k0_pay4 t p s) (k0_pay13 (k0_pay2 i) s) (k0_pay14 k0_pay4) (k0_pay15 t))
    (k0_pay17 (k0_pay2 i) (k0_pay11 s))
    (k0_pay18 k0_pay3 k0_pay4 (k0_pay8 t) (k0_pay9 t p) (k0_pay10 t))
    a

end Cert.KernelIdeal.Trip

end
-- ==== Proof.TripPiece.lean ====
/-
  The one piece a trip of the row-chunk loop writes: a store over the whole accumulator of `tripVal` of the three
  chunks loaded at the trip's rows and of the accumulator as the trip finds it.
-/
import proofs.«412645_j54546084659704_2_alg».proof.Proof.Gen.KernelIdeal.Loops
import proofs.«412645_j54546084659704_2_alg».proof.Proof.TripDef

set_option maxRecDepth 16384

noncomputable section

namespace Cert.KernelIdeal.Trip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The rows a trip reads: eight rows from row `8 k` of the block. -/
abbrev chunkRect (k : Fin k0_t1_loop.trips) : Rect S512x128 :=
  Rect.unit (s := S512x128) (k0_off1 k) S8x128.size (k0_off1_inb k)

/-- The whole accumulator. -/
abbrev accRect : Rect S8x2048 :=
  Rect.unit (s := S8x2048) ![0, 0] S8x2048.size inb_S8x2048_S8x2048_0_0

theorem tripL_eq (𝒱 : Variants) (c : Dev nD) (bd : Option 𝒱.V) (i : grid0.Coords) (arg2 : Memref sig .tc .vmem S512x128 .f32) (harg2 : arg2.IsWhole) (arg3 : Memref sig .tc .vmem S512x128 .f32) (harg3 : arg3.IsWhole) (arg4 : Memref sig .tc .vmem S512x128 .i32) (harg4 : arg4.IsWhole) (arg5 : Memref sig .tc .vmem S1x8x128 .f32) (harg5 : arg5.IsWhole) (arg6 : Memref sig .tc .vmem S8x2048 .f32) (harg6 : arg6.IsWhole) (X_arg2 : BufTy.Contents (Elt F) arg2.view.ty) (X_arg3 : BufTy.Contents (Elt F) arg3.view.ty) (X_arg4 : BufTy.Contents (Elt F) arg4.view.ty) (k : Fin k0_t1_loop.trips) (f_arg6 : BufTy.Contents (Elt F) arg6.view.ty) :
    tripL_k0_t1 (F := F) 𝒱 c bd i arg2 harg2 arg3 harg3 arg4 harg4 arg5 harg5 arg6 harg6 X_arg2 X_arg3 X_arg4 k f_arg6
      = [⟨accRect, tripVal i
            (View.readAt (Elt F) arg3.view (chunkRect k).toLoadRect X_arg3)
            (View.readAt (Elt F) arg2.view (chunkRect k).toLoadRect X_arg2)
            (View.readAt (Elt F) arg4.view (chunkRect k).toLoadRect X_arg4)
            (View.readAt (Elt F) arg6.view accRect.toLoadRect f_arg6)⟩] := by
  unfold tripL_k0_t1 trip_k0_t1
  dsimp only
  sl_unfold_run_names
  rfl

end Cert.KernelIdeal.Trip

end
-- ==== Proof.LoopAcc.lean ====
/-
  The accumulator through the row-chunk loop, and what each kind of grid point leaves in it.

  `loopAcc i T P S a k` is the accumulator after the first `k` trips over a block of targets `T`, predictions `P`
  and station words `S`, from the contents `a` at the loop's entry: each trip applies `tripVal` to its chunk of
  eight rows and to what the trips before left. The pieces the trips write, read back, are this recursion
  (`read_writes_pieces`, by induction on the trips: a trip's one store covers the accumulator, so what is read
  back after it is its value, and what it loads is what the trips before left). A point that is a core's first
  starts the loop from the zero fill; every other point starts it from what the point before left.
-/
import proofs.«412645_j54546084659704_2_alg».proof.Proof.Gen.KernelIdeal.Frame
import proofs.«412645_j54546084659704_2_alg».proof.Proof.TripPiece
import Idealize.ShloMosaic.Lib.Pipeline.Value

set_option maxRecDepth 16384

noncomputable section

namespace Cert.KernelIdeal.Trip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The accumulator after the first `k` trips (unchanged past the last trip). -/
def loopAcc (i : grid0.Coords) (T P : Vec F S512x128 .f32) (S : Vec F S512x128 .i32) (a : Vec F S8x2048 .f32) :
    ℕ → Vec F S8x2048 .f32
  | 0 => a
  | k + 1 =>
    if h : k < k0_t1_loop.trips then
      tripVal i (View.ld T (chunkRect ⟨k, h⟩)) (View.ld P (chunkRect ⟨k, h⟩)) (View.ld S (chunkRect ⟨k, h⟩))
        (loopAcc i T P S a k)
    else loopAcc i T P S a k

theorem loopAcc_zero (i : grid0.Coords) (T P : Vec F S512x128 .f32) (S : Vec F S512x128 .i32) (a : Vec F S8x2048 .f32) :
    loopAcc i T P S a 0 = a := rfl

theorem loopAcc_succ (i : grid0.Coords) (T P : Vec F S512x128 .f32) (S : Vec F S512x128 .i32) (a : Vec F S8x2048 .f32)
    (k : Fin k0_t1_loop.trips) :
    loopAcc i T P S a (k.val + 1)
      = tripVal i (View.ld T (chunkRect k)) (View.ld P (chunkRect k)) (View.ld S (chunkRect k)) (loopAcc i T P S a k.val) := by
  rw [loopAcc, dif_pos k.isLt]

theorem offsets_zero : (![0, 0] : Fin S8x2048.rank → ℕ) = fun _ => 0 := by
  funext a; match a with | ⟨0, _⟩ => rfl | ⟨1, _⟩ => rfl

/-- A rectangle at offsets zero of the shape's own sizes holds every index. -/
theorem unit_zero_covers {S : Shape} {off : Fin S.rank → ℕ} (h : off = fun _ => 0)
    (inb : ∀ a, off a + S.size a ≤ S.size a) (y : S.Idx) : y ∈ (Rect.unit off S.size inb).set := by
  subst h
  show y ∈ (Rect.whole S).set
  rw [Rect.set_whole]; exact Finset.mem_univ y

theorem accRect_covers (y : S8x2048.Idx) : y ∈ accRect.set := unit_zero_covers offsets_zero _ y

/-- One covering store read back is its value. -/
theorem read_writes_acc {sg : RefSig} {κ : Kind} {sp : Space} (v : View sg κ sp S8x2048 .f32) (f : v.ty.Contents (Elt F))
    (w : S8x2048.Idx → Elt F .f32) (L : List (View.Piece (Elt F) S8x2048 .f32)) :
    v.read (Elt F) (v.writes (Elt F) f (⟨accRect, w⟩ :: L)) = w := by
  refine (View.read_writes_eq_canon v f _ (fun y => ⟨_, List.mem_cons_self .., accRect_covers y⟩)).trans ?_
  exact View.canon_cons_unit_zero offsets_zero _ w L

theorem read_writes_pieces (𝒱 : Variants) (c : Dev nD) (bd : Option 𝒱.V) (i : grid0.Coords) (arg2 : Memref sig .tc .vmem S512x128 .f32) (harg2 : arg2.IsWhole) (arg3 : Memref sig .tc .vmem S512x128 .f32) (harg3 : arg3.IsWhole) (arg4 : Memref sig .tc .vmem S512x128 .i32) (harg4 : arg4.IsWhole) (arg5 : Memref sig .tc .vmem S1x8x128 .f32) (harg5 : arg5.IsWhole) (arg6 : Memref sig .tc .vmem S8x2048 .f32) (harg6 : arg6.IsWhole) (X_arg2 : BufTy.Contents (Elt F) arg2.view.ty) (X_arg3 : BufTy.Contents (Elt F) arg3.view.ty) (X_arg4 : BufTy.Contents (Elt F) arg4.view.ty) (G : BufTy.Contents (Elt F) arg6.view.ty) :
    ∀ k, k ≤ k0_t1_loop.trips →
      arg6.view.read (Elt F) (arg6.view.writes (Elt F) G (pb_k0_t1 (F := F) 𝒱 c bd i arg2 harg2 arg3 harg3 arg4 harg4 arg5 harg5 arg6 harg6 X_arg2 X_arg3 X_arg4 G k))
        = loopAcc i (arg3.view.read (Elt F) X_arg3) (arg2.view.read (Elt F) X_arg2) (arg4.view.read (Elt F) X_arg4)
            (arg6.view.read (Elt F) G) k
  | 0, _ => rfl
  | k + 1, hk => by
    have h : k < k0_t1_loop.trips := hk
    have ih := read_writes_pieces 𝒱 c bd i arg2 harg2 arg3 harg3 arg4 harg4 arg5 harg5 arg6 harg6 X_arg2 X_arg3 X_arg4 G k (Nat.le_of_lt h)
    rw [show k + 1 = (⟨k, h⟩ : Fin k0_t1_loop.trips).val + 1 from rfl, pb_k0_t1_succ, tripL_eq, List.singleton_append,
      read_writes_acc, loopAcc_succ]
    simp only [View.readAt_eq_ld]
    rw [View.ld_unit_zero (S := S8x2048) offsets_zero, ih]

end Cert.KernelIdeal.Trip

end
-- ==== Proof.Cases.lean ====
/-
  What each kind of grid point leaves behind, in terms of the loop's recursion.

  A core's first point zero-fills the accumulator and runs the loop from that fill; every other point runs the
  loop from what the point before left; so the scratch after a point is `loopAcc` at the full trip count, from
  the zero fill or from the previous contents. The last point of a core's sweep moreover stores its output block:
  a zero fill, then the entry `[0, 0, 0]` (the losses summed over the core's stations, from rows 0 to 3 of the
  accumulator after the loop) and the entry `[0, 1, 0]` (the count of stations present, from row 0).
-/
import proofs.«412645_j54546084659704_2_alg».proof.Proof.LoopAcc

set_option maxRecDepth 16384

noncomputable section

namespace Cert.KernelIdeal.Trip

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Row `ρ` of the accumulator, as the last point loads it. -/
abbrev accRow0 : Rect S8x2048 := Rect.unit (s := S8x2048) ![0, 0] S1x2048.size inb_S8x2048_S1x2048_0_0
abbrev accRow1 : Rect S8x2048 := Rect.unit (s := S8x2048) ![1, 0] S1x2048.size inb_S8x2048_S1x2048_1_0
abbrev accRow2 : Rect S8x2048 := Rect.unit (s := S8x2048) ![2, 0] S1x2048.size inb_S8x2048_S1x2048_2_0
abbrev accRow3 : Rect S8x2048 := Rect.unit (s := S8x2048) ![3, 0] S1x2048.size inb_S8x2048_S1x2048_3_0

/-- The stores of the last point into its output block, last first, from the accumulator `acc` after the loop. -/
def outPieces (acc : Vec F S8x2048 .f32) : List (View.Piece (Elt F) S1x8x128 .f32) :=
  [⟨Rect.unit (s := S1x8x128) ![0, 1, 0] S1x1x1.size inb_S1x8x128_S1x1x1_0_1_0, k0_pay7 (k0_pay20 (View.ld acc accRow0))⟩,
   ⟨Rect.unit (s := S1x8x128) ![0, 0, 0] S1x1x1.size inb_S1x8x128_S1x1x1_0_0_0,
      k0_pay6 (k0_pay21 (View.ld acc accRow0) (View.ld acc accRow1) (View.ld acc accRow2) (View.ld acc accRow3))⟩,
   ⟨Rect.unit (s := S1x8x128) ![0, 0, 0] S1x8x128.size inb_S1x8x128_S1x8x128_0_0_0, k0_pay22⟩]

/-- A point that is neither a core's first nor its last: the loop from what the point before left. -/
theorem scratch_mid (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .i32) (harg4 : arg4.IsWhole) (arg5 : Memref sig .tc .vmem S1x8x128 .f32) (harg5 : arg5.IsWhole) (arg6 : Memref sig .tc .vmem S8x2048 .f32) (harg6 : arg6.IsWhole) (hc0 : ¬cond0_0 i) (hc1 : ¬cond0_1 i)
    (x0 : Vec F S512x128 .f32) (x1 : Vec F S512x128 .f32) (x2 : Vec F S512x128 .i32) (xs0 : Vec F S8x2048 .f32) :
    sout0_B_0 c i arg2 harg2 arg3 harg3 arg4 harg4 arg5 harg5 arg6 harg6 hc0 hc1 x0 x1 x2 xs0 = loopAcc i x1 x0 x2 xs0 k0_t1_loop.trips := by
  unfold sout0_B_0
  refine (View.read_writes_of_cover (v := VS0_0) (f := VS0_0.junk) arg6.view (harg6.unread xs0) _
    (scover0_B_0 c i arg2 harg2 arg3 harg3 arg4 harg4 arg5 harg5 arg6 harg6 hc0 hc1 x0 x1 x2 xs0)).trans ?_
  unfold kernelRun0_B
  dsimp only
  refine (read_writes_pieces Variants.none c none i arg2 harg2 arg3 harg3 arg4 harg4 arg5 harg5 arg6 harg6
    (harg2.unread x0) (harg3.unread x1) (harg4.unread x2) (harg6.unread xs0) _ le_rfl).trans ?_
  rw [harg3.read_unread, harg2.read_unread, harg4.read_unread, harg6.read_unread]

/-- A core's last point: the same loop. -/
theorem scratch_last (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .i32) (harg4 : arg4.IsWhole) (arg5 : Memref sig .tc .vmem S1x8x128 .f32) (harg5 : arg5.IsWhole) (arg6 : Memref sig .tc .vmem S8x2048 .f32) (harg6 : arg6.IsWhole) (hc0 : ¬cond0_0 i) (hc1 : cond0_1 i)
    (x0 : Vec F S512x128 .f32) (x1 : Vec F S512x128 .f32) (x2 : Vec F S512x128 .i32) (xs0 : Vec F S8x2048 .f32) :
    sout0_C_0 c i arg2 harg2 arg3 harg3 arg4 harg4 arg5 harg5 arg6 harg6 hc0 hc1 x0 x1 x2 xs0 = loopAcc i x1 x0 x2 xs0 k0_t1_loop.trips := by
  unfold sout0_C_0
  refine (View.read_writes_of_cover (v := VS0_0) (f := VS0_0.junk) arg6.view (harg6.unread xs0) _
    (scover0_C_0 c i arg2 harg2 arg3 harg3 arg4 harg4 arg5 harg5 arg6 harg6 hc0 hc1 x0 x1 x2 xs0)).trans ?_
  unfold kernelRun0_C
  dsimp only
  refine (read_writes_pieces Variants.none c none i arg2 harg2 arg3 harg3 arg4 harg4 arg5 harg5 arg6 harg6
    (harg2.unread x0) (harg3.unread x1) (harg4.unread x2) (harg6.unread xs0) _ le_rfl).trans ?_
  rw [harg3.read_unread, harg2.read_unread, harg4.read_unread, harg6.read_unread]

/-- A core's first point: the loop from the zero fill. -/
theorem scratch_first (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .i32) (harg4 : arg4.IsWhole) (arg5 : Memref sig .tc .vmem S1x8x128 .f32) (harg5 : arg5.IsWhole) (arg6 : Memref sig .tc .vmem S8x2048 .f32) (harg6 : arg6.IsWhole) (hc0 : cond0_0 i) (hc1 : ¬cond0_1 i)
    (x0 : Vec F S512x128 .f32) (x1 : Vec F S512x128 .f32) (x2 : Vec F S512x128 .i32) :
    sout0_A_0 c i arg2 harg2 arg3 harg3 arg4 harg4 arg5 harg5 arg6 harg6 hc0 hc1 x0 x1 x2 = loopAcc i x1 x0 x2 (k0_pay1 (F := F)) k0_t1_loop.trips := by
  unfold sout0_A_0
  refine (View.read_writes_of_cover (v := VS0_0) (f := VS0_0.junk) arg6.view arg6.view.junk _
    (scover0_A_0 c i arg2 harg2 arg3 harg3 arg4 harg4 arg5 harg5 arg6 harg6 hc0 hc1 x0 x1 x2)).trans ?_
  unfold kernelRun0_A
  dsimp only
  sl_unfold_run_names
  rw [View.writes_append]
  refine (read_writes_pieces Variants.none c none i arg2 harg2 arg3 harg3 arg4 harg4 arg5 harg5 arg6 harg6
    (harg2.unread x0) (harg3.unread x1) (harg4.unread x2) _ _ le_rfl).trans ?_
  rw [harg3.read_unread, harg2.read_unread, harg4.read_unread]
  rw [show arg6.view.read (Elt F) (arg6.view.writes (Elt F) arg6.view.junk
        [⟨Rect.unit (s := S8x2048) ![0, 0] S8x2048.size inb_S8x2048_S8x2048_0_0, k0_pay1 (F := F)⟩]) = k0_pay1 (F := F)
      from read_writes_acc arg6.view _ _ []]

/-- The output block the last point leaves: its three stores read back. -/
theorem out_last (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .i32) (harg4 : arg4.IsWhole) (arg5 : Memref sig .tc .vmem S1x8x128 .f32) (harg5 : arg5.IsWhole) (arg6 : Memref sig .tc .vmem S8x2048 .f32) (harg6 : arg6.IsWhole) (hc0 : ¬cond0_0 i) (hc1 : cond0_1 i)
    (x0 : Vec F S512x128 .f32) (x1 : Vec F S512x128 .f32) (x2 : Vec F S512x128 .i32) (xs0 : Vec F S8x2048 .f32) :
    out0_C_3 c i arg2 harg2 arg3 harg3 arg4 harg4 arg5 harg5 arg6 harg6 hc0 hc1 x0 x1 x2 xs0 = View.canon (outPieces (loopAcc i x1 x0 x2 xs0 k0_t1_loop.trips)) := by
  unfold out0_C_3
  refine (View.read_writes_eq_canon VO0_3 VO0_3.junk _ (cover0_C_3 c i arg2 harg2 arg3 harg3 arg4 harg4 arg5 harg5 arg6 harg6 hc0 hc1 x0 x1 x2 xs0)).trans ?_
  unfold kernelRun0_C
  dsimp only
  sl_unfold_run_names
  simp only [View.readAt_eq_ld]
  rw [show arg6.view.read (Elt F) (arg6.view.writes (Elt F) (harg6.unread xs0)
        (pb_k0_t1 (F := F) Variants.none c none i arg2 harg2 arg3 harg3 arg4 harg4 arg5 harg5 arg6 harg6
          (harg2.unread x0) (harg3.unread x1) (harg4.unread x2) (harg6.unread xs0) (Scf.trips k0_t1_loop.lb k0_t1_loop.ub k0_t1_loop.st)))
      = loopAcc i x1 x0 x2 xs0 k0_t1_loop.trips from by
    refine (read_writes_pieces Variants.none c none i arg2 harg2 arg3 harg3 arg4 harg4 arg5 harg5 arg6 harg6
      (harg2.unread x0) (harg3.unread x1) (harg4.unread x2) (harg6.unread xs0) _ le_rfl).trans ?_
    rw [harg3.read_unread, harg2.read_unread, harg4.read_unread, harg6.read_unread]]
  rfl

end Cert.KernelIdeal.Trip

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.TripValue.lean ====
/-
  The accumulator a trip stores, read at row `r` and column `q`, at the extended reals: the accumulator it
  found there plus, over the chunk's eight rows and 128 lanes, data row `r` of the sample times the factor that
  is one when the sample's word is the column's station.
-/
import proofs.«412645_j54546084659704_2_alg».proof.Proof.TripDef
import proofs.«412645_j54546084659704_2_alg».proof.Proof.Spec
import proofs.«412645_j54546084659704_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Trip

open Cert.KernelIdeal Cert.KernelIdeal.Gen Cert.SegStats Idealize.ShloMosaic Idealize.ShloMosaic.ValueIdx
open scoped BigOperators

/-! The auxiliary lemmas: each layout operation of the body read at an index, then each row pair's product. -/
namespace TripValueAux

/-- The matrix product's dimension record is the plain `[8, 256] × [256, 2048]` one. -/
theorem dot_plain : dot_S8x256_S256x2048_S8x2048_1_0_0_1_n_n = DotDims.plain 8 256 2048 := rfl

/-- Column `q` stands for station `2048 * (first grid coordinate) + q`: the column number plus the splat of the
    product, as 32-bit words, is the word of that natural number (taking the word of a number respects sums and
    products). -/
theorem station_apply (i : grid0.Coords) (u : Fin 1) (q : Fin 2048) :
    k0_pay2 i (ix2 u q) = BitVec.ofNat 32 ((i 0).val * 2048 + q.val) := by
  unfold k0_pay2
  show IntOp.addi (iota .tc S1x2048 32 [1] _ (ix2 u q)) (Scalar.muli (BitVec.ofNat 32 (i 0).val) 2048#32) = _
  rw [iota_single_apply]
  show BitVec.ofNat 32 q.val + BitVec.ofNat 32 (i 0).val * BitVec.ofNat 32 2048 = _
  rw [Nat.add_comm, BitVec.ofNat_add, BitVec.ofNat_mul]

/-- The low and the high half of the 256 contraction positions. -/
def lo (l : Fin 128) : Fin 256 := ⟨l.val, by omega⟩
def hi (l : Fin 128) : Fin 256 := ⟨128 + l.val, by omega⟩

/-- A sum over the 256 positions is the sum over the low half plus the sum over the high half. -/
theorem sum_halves (f : Fin 256 → EReal) : ∑ k : Fin 256, f k = ∑ l : Fin 128, f (lo l) + ∑ l : Fin 128, f (hi l) :=
  Fin.sum_univ_add (a := 128) (b := 128) f

/-- The transposed word chunk at `(l, c)` is the chunk at `(c, l)`. -/
theorem pay11_apply (s : Vec Ideal S8x128 .i32) (l : Fin 128) (c : Fin 8) :
    k0_pay11 (F := Ideal) s (ix2 l c) = s (ix2 c l) := by
  unfold k0_pay11
  refine (transpose_ix2_apply _ _ l c).trans ?_
  rw [shapeCast_self]

/-- The comparison bit of "word `a` is station `st`", zero-extended and read as a signed integer, is `member a st`:
    the bit is `1` exactly when the two words are equal, and its extension reads `1` or `0`. -/
theorem member_bit (a : BitVec 32) (st : ℕ) :
    FloatOps.sitofp (F := Ideal) .f32 ((IntOp.cmpi .eq a (BitVec.ofNat 32 st)).setWidth 32) = member a st := by
  show (((((IntOp.cmpi .eq a (BitVec.ofNat 32 st)).setWidth 32).toInt : ℝ)) : EReal) = _
  by_cases h : a = BitVec.ofNat 32 st
  · rw [member_of_eq h]
    have e : IntOp.cmpi .eq a (BitVec.ofNat 32 st) = 1#1 := by
      show BitVec.ofBool (a == BitVec.ofNat 32 st) = 1#1
      rw [beq_iff_eq.mpr h]; rfl
    rw [e, show (BitVec.setWidth 32 1#1).toInt = 1 from by decide]
    norm_num
  · rw [member_of_ne h]
    have e : IntOp.cmpi .eq a (BitVec.ofNat 32 st) = 0#1 := by
      show BitVec.ofBool (a == BitVec.ofNat 32 st) = 0#1
      rw [beq_eq_false_iff_ne.mpr h]; rfl
    rw [e, show (BitVec.setWidth 32 0#1).toInt = 0 from by decide]
    norm_num

/-- A column `[256, 1]` broadcast along the columns reads, at `(k, q)`, its entry `k`. -/
theorem bcol_apply (w : IVec S256x1 32) (hb : S256x1.Broadcasts S256x2048) (k : Fin 256) (q : Fin 2048) :
    broadcastTo S256x2048 w hb (ix2 k q) = w (ix2 k (0 : Fin 1)) := by
  refine broadcastTo_apply w hb (ix2 k q) (ix2 k (0 : Fin 1)) fun ax => ?_
  match ax with
  | ⟨0, _⟩ => rfl
  | ⟨1, _⟩ => rfl

/-- The table of ones: at `(k, q)` it is `1` when word `k` of the column is the station of column `q`, else `0`. -/
theorem occ_apply (v6 : IVec S1x2048 32) (w : IVec S256x1 32) (hb1 : S256x1.Broadcasts S256x2048)
    (hb2 : S1x2048.Broadcasts S256x2048) (h32 : 1 < 32) (hbf : FTy.bits .bf16 < FTy.bits .f32)
    (k : Fin 256) (q : Fin 2048) (st : ℕ) (hst : v6 (ix2 (0 : Fin 1) q) = BitVec.ofNat 32 st) :
    (truncf .bf16 (sitofp (F := Ideal) .f32 (extui 32 (cmpi .eq (broadcastTo S256x2048 w hb1) (broadcastTo S256x2048 v6 hb2)) h32)) hbf
        : FVec Ideal S256x2048 .bf16) (ix2 k q)
      = member (w (ix2 k (0 : Fin 1))) st := by
  show FloatOps.sitofp (F := Ideal) .f32 ((IntOp.cmpi .eq (broadcastTo S256x2048 w hb1 (ix2 k q)) (broadcastTo S256x2048 v6 hb2 (ix2 k q))).setWidth 32) = _
  rw [bcol_apply, broadcastTo_1b_ab_apply, hst]
  exact member_bit _ _

/-- Two columns of the transposed chunk stacked: the low positions read column `c0` … -/
theorem wordcol_lo (v28 : IVec S128x8 32) (o0 o1 : ℕ) (h0 : S128x8.Slices ![0, o0] S128x1) (h1 : S128x8.Slices ![0, o1] S128x1)
    (hc : Shape.Concatenates [S128x1, S128x1] S256x1 0) (c0 : Fin 8) (hc0 : c0.val = o0) (l : Fin 128) :
    concatenate S256x1 0 [⟨S128x1, extractStridedSlice S128x1 ![0, o0] v28 h0⟩, ⟨S128x1, extractStridedSlice S128x1 ![0, o1] v28 h1⟩] hc
        (ix2 (lo l) (0 : Fin 1)) = v28 (ix2 l c0) := by
  refine (concatenate_pair_apply_left 0 _ _ hc (ix2 (lo l) (0 : Fin 1)) rfl (ix2 l (0 : Fin 1))
    (fun b => by match b with | ⟨0, _⟩ => rfl | ⟨1, _⟩ => rfl)).trans ?_
  exact slice2_axis1_apply o0 v28 h0 l 0 c0 (by rw [hc0]; rfl)

/-- … and the high positions column `c1`. -/
theorem wordcol_hi (v28 : IVec S128x8 32) (o0 o1 : ℕ) (h0 : S128x8.Slices ![0, o0] S128x1) (h1 : S128x8.Slices ![0, o1] S128x1)
    (hc : Shape.Concatenates [S128x1, S128x1] S256x1 0) (c1 : Fin 8) (hc1 : c1.val = o1) (l : Fin 128) :
    concatenate S256x1 0 [⟨S128x1, extractStridedSlice S128x1 ![0, o0] v28 h0⟩, ⟨S128x1, extractStridedSlice S128x1 ![0, o1] v28 h1⟩] hc
        (ix2 (hi l) (0 : Fin 1)) = v28 (ix2 l c1) := by
  refine (concatenate_pair_apply_right 0 _ _ hc (ix2 (hi l) (0 : Fin 1)) rfl rfl (ix2 l (0 : Fin 1))
    (fun b hb => by match b with | ⟨0, _⟩ => exact absurd rfl hb | ⟨1, _⟩ => rfl)
    (by show l.val + 128 = 128 + l.val; omega)).trans ?_
  exact slice2_axis1_apply o1 v28 h1 l 0 c1 (by rw [hc1]; rfl)

/-! ## The data block of a row pair -/

/-- A row cut out of the 8-row chunk reads that row. -/
theorem rowslice_apply (X : FVec Ideal S8x128 .f32) (o : ℕ) (h : S8x128.Slices ![o, 0] S1x128) (row : Fin 8)
    (hrow : row.val = o) (l : Fin 128) :
    extractStridedSlice S1x128 ![o, 0] X h (ix2 (0 : Fin 1) l) = X (ix2 row l) :=
  slice2_axis0_apply o X h 0 l row (by rw [hrow]; rfl)

/-- Four single rows stacked: row `r` of the stack is piece `r`. -/
theorem quad_apply (x0 x1 x2 x3 : FVec Ideal S1x128 .f32)
    (hc : Shape.Concatenates [S1x128, S1x128, S1x128, S1x128] S4x128 0) (r : Fin 4) (l : Fin 128) :
    concatenate S4x128 0 [⟨S1x128, x0⟩, ⟨S1x128, x1⟩, ⟨S1x128, x2⟩, ⟨S1x128, x3⟩] hc (ix2 r l)
      = ![x0 (ix2 (0 : Fin 1) l), x1 (ix2 (0 : Fin 1) l), x2 (ix2 (0 : Fin 1) l), x3 (ix2 (0 : Fin 1) l)] r := by
  match r with
  | ⟨0, _⟩ =>
    exact concatenate_apply_piece 0 [⟨S1x128, x0⟩, ⟨S1x128, x1⟩, ⟨S1x128, x2⟩, ⟨S1x128, x3⟩] hc _ 0 (by simp) S1x128 x0 rfl rfl 0 rfl (ix2 (0 : Fin 1) l)
      (fun b hb => by match b with | ⟨0, _⟩ => exact absurd rfl hb | ⟨1, _⟩ => rfl) rfl
  | ⟨1, _⟩ =>
    exact concatenate_apply_piece 0 [⟨S1x128, x0⟩, ⟨S1x128, x1⟩, ⟨S1x128, x2⟩, ⟨S1x128, x3⟩] hc _ 1 (by simp) S1x128 x1 rfl rfl 1 rfl (ix2 (0 : Fin 1) l)
      (fun b hb => by match b with | ⟨0, _⟩ => exact absurd rfl hb | ⟨1, _⟩ => rfl) rfl
  | ⟨2, _⟩ =>
    exact concatenate_apply_piece 0 [⟨S1x128, x0⟩, ⟨S1x128, x1⟩, ⟨S1x128, x2⟩, ⟨S1x128, x3⟩] hc _ 2 (by simp) S1x128 x2 rfl rfl 2 rfl (ix2 (0 : Fin 1) l)
      (fun b hb => by match b with | ⟨0, _⟩ => exact absurd rfl hb | ⟨1, _⟩ => rfl) rfl
  | ⟨3, _⟩ =>
    exact concatenate_apply_piece 0 [⟨S1x128, x0⟩, ⟨S1x128, x1⟩, ⟨S1x128, x2⟩, ⟨S1x128, x3⟩] hc _ 3 (by simp) S1x128 x3 rfl rfl 3 rfl (ix2 (0 : Fin 1) l)
      (fun b hb => by match b with | ⟨0, _⟩ => exact absurd rfl hb | ⟨1, _⟩ => rfl) rfl

/-- The chunk of targets passes through its shape cast unchanged. -/
theorem pay8_eq (t : Vec Ideal S8x128 .f32) : k0_pay8 (F := Ideal) t = t := by
  unfold k0_pay8; exact shapeCast_self _ _

theorem pay10_apply (t : Vec Ideal S8x128 .f32) (j : S8x128.Idx) : k0_pay10 (F := Ideal) t j = t j * t j := by
  unfold k0_pay10; rw [pay8_eq]; rfl

theorem pay9_apply (t p : Vec Ideal S8x128 .f32) (j : S8x128.Idx) :
    k0_pay9 (F := Ideal) t p j = (t j - p j) * (t j - p j) := by
  unfold k0_pay9; rw [pay8_eq, shapeCast_self]; rfl

theorem pay4_apply (j : S8x128.Idx) : k0_pay4 (F := Ideal) j = lit 0x3F800000#32 := rfl

theorem pay3_apply (j : S4x256.Idx) : k0_pay3 (F := Ideal) j = 0 := by
  show Ideal.ofBits .f32 0x00000000#32 = 0
  exact Ideal.ofBits_zero_f32

/-- From the fifth data row on the per-sample quantity is zero. -/
theorem quantity_of_ge {n : ℕ} (h : 4 ≤ n) (t p : EReal) : quantity n t p = 0 := by
  match n, h with
  | n + 4, _ => rfl

/-- The four data rows of chunk row `o`, as the body stacks them. -/
def quadOf (X0 X1 X2 X3 : FVec Ideal S8x128 .f32) (o : ℕ) (h : S8x128.Slices ![o, 0] S1x128) : FVec Ideal S4x128 .f32 :=
  concatenate S4x128 0 [⟨S1x128, extractStridedSlice S1x128 ![o, 0] X0 h⟩, ⟨S1x128, extractStridedSlice S1x128 ![o, 0] X1 h⟩,
    ⟨S1x128, extractStridedSlice S1x128 ![o, 0] X2 h⟩, ⟨S1x128, extractStridedSlice S1x128 ![o, 0] X3 h⟩]
    concatenates_S1x128_S1x128_S1x128_S1x128_S4x128_d0

/-- Data row `r` of chunk row `row` at lane `l` is the per-sample quantity `r` of that sample. -/
theorem quadOf_apply (t p : Vec Ideal S8x128 .f32) (o : ℕ) (h : S8x128.Slices ![o, 0] S1x128) (row : Fin 8)
    (hrow : row.val = o) (r : Fin 4) (l : Fin 128) :
    quadOf k0_pay4 (k0_pay8 t) (k0_pay10 t) (k0_pay9 t p) o h (ix2 r l)
      = quantity r.val (t (ix2 row l)) (p (ix2 row l)) := by
  unfold quadOf
  rw [quad_apply, rowslice_apply _ o h row hrow l, rowslice_apply _ o h row hrow l, rowslice_apply _ o h row hrow l,
    rowslice_apply _ o h row hrow l, pay4_apply, pay8_eq, pay10_apply, pay9_apply]
  match r with
  | ⟨0, _⟩ => rfl
  | ⟨1, _⟩ => rfl
  | ⟨2, _⟩ => rfl
  | ⟨3, _⟩ => rfl

/-- The 8 × 256 data block of the row pair `(oA, oB)`: the two rows' data side by side, four zero rows beneath. -/
def dataBlock (v7 : FVec Ideal S4x256 .f32) (X0 X1 X2 X3 : FVec Ideal S8x128 .f32) (oA oB : ℕ)
    (hA : S8x128.Slices ![oA, 0] S1x128) (hB : S8x128.Slices ![oB, 0] S1x128) : FVec Ideal S8x256 .f32 :=
  concatenate S8x256 0 [⟨S4x256, concatenate S4x256 1 [⟨S4x128, quadOf X0 X1 X2 X3 oA hA⟩, ⟨S4x128, quadOf X0 X1 X2 X3 oB hB⟩]
    concatenates_S4x128_S4x128_S4x256_d1⟩, ⟨S4x256, v7⟩] concatenates_S4x256_S4x256_S8x256_d0

/-- Two 4-row blocks stacked: the first four rows read the first block, the last four the second. -/
theorem outer_apply (T v7 : FVec Ideal S4x256 .f32) (h0 : Shape.Concatenates [S4x256, S4x256] S8x256 0) (r : Fin 8) (k : Fin 256) :
    concatenate S8x256 0 [⟨S4x256, T⟩, ⟨S4x256, v7⟩] h0 (ix2 r k)
      = if hr : r.val < 4 then T (ix2 ⟨r.val, hr⟩ k) else v7 (ix2 ⟨r.val - 4, by omega⟩ k) := by
  split
  · next hr =>
    exact concatenate_pair_apply_left 0 _ _ h0 (ix2 r k) rfl (ix2 ⟨r.val, hr⟩ k)
      (fun b => by match b with | ⟨0, _⟩ => rfl | ⟨1, _⟩ => rfl)
  · next hr =>
    exact concatenate_pair_apply_right 0 _ _ h0 (ix2 r k) rfl rfl (ix2 ⟨r.val - 4, by omega⟩ k)
      (fun b hb => by match b with | ⟨0, _⟩ => exact absurd rfl hb | ⟨1, _⟩ => rfl)
      (by show (r.val - 4) + 4 = r.val; omega)

/-- The data block at a low position reads row `rowA` of the pair … -/
theorem dataBlock_lo (t p : Vec Ideal S8x128 .f32) (oA oB : ℕ) (hA : S8x128.Slices ![oA, 0] S1x128)
    (hB : S8x128.Slices ![oB, 0] S1x128) (rowA : Fin 8) (hrA : rowA.val = oA) (r : Fin 8) (l : Fin 128) :
    dataBlock k0_pay3 k0_pay4 (k0_pay8 t) (k0_pay10 t) (k0_pay9 t p) oA oB hA hB (ix2 r (lo l))
      = quantity r.val (t (ix2 rowA l)) (p (ix2 rowA l)) := by
  unfold dataBlock
  rw [outer_apply]
  split
  · next hr =>
    refine (concatenate_pair_apply_left (s₁ := S4x128) (s₂ := S4x128) 1 _ _ _ (ix2 (⟨r.val, hr⟩ : Fin 4) (lo l)) rfl (ix2 (⟨r.val, hr⟩ : Fin 4) l)
      (fun b => by match b with | ⟨0, _⟩ => rfl | ⟨1, _⟩ => rfl)).trans ?_
    exact quadOf_apply t p oA hA rowA hrA ⟨r.val, hr⟩ l
  · next hr =>
    rw [quantity_of_ge (by omega)]; exact pay3_apply _

/-- … and at a high position row `rowB`. -/
theorem dataBlock_hi (t p : Vec Ideal S8x128 .f32) (oA oB : ℕ) (hA : S8x128.Slices ![oA, 0] S1x128)
    (hB : S8x128.Slices ![oB, 0] S1x128) (rowB : Fin 8) (hrB : rowB.val = oB) (r : Fin 8) (l : Fin 128) :
    dataBlock k0_pay3 k0_pay4 (k0_pay8 t) (k0_pay10 t) (k0_pay9 t p) oA oB hA hB (ix2 r (hi l))
      = quantity r.val (t (ix2 rowB l)) (p (ix2 rowB l)) := by
  unfold dataBlock
  rw [outer_apply]
  split
  · next hr =>
    refine (concatenate_pair_apply_right (s₁ := S4x128) (s₂ := S4x128) 1 _ _ _ (ix2 (⟨r.val, hr⟩ : Fin 4) (hi l)) rfl rfl (ix2 (⟨r.val, hr⟩ : Fin 4) l)
      (fun b hb => by match b with | ⟨0, _⟩ => rfl | ⟨1, _⟩ => exact absurd rfl hb)
      (by show l.val + 128 = 128 + l.val; omega)).trans ?_
    exact quadOf_apply t p oB hB rowB hrB ⟨r.val, hr⟩ l
  · next hr =>
    rw [quantity_of_ge (by omega)]; exact pay3_apply _

/-! ## The table of ones of a row pair, the pair's product, and the trip -/

/-- The 256 × 2048 table of the column pair `(o0, o1)` of the transposed word chunk. -/
def occBlock (v6 : IVec S1x2048 32) (v28 : IVec S128x8 32) (o0 o1 : ℕ) (h0 : S128x8.Slices ![0, o0] S128x1)
    (h1 : S128x8.Slices ![0, o1] S128x1) : FVec Ideal S256x2048 .bf16 :=
  truncf .bf16 (sitofp .f32 (extui 32 (cmpi .eq
    (broadcastTo S256x2048 (concatenate S256x1 0 [⟨S128x1, extractStridedSlice S128x1 ![0, o0] v28 h0⟩,
      ⟨S128x1, extractStridedSlice S128x1 ![0, o1] v28 h1⟩] concatenates_S128x1_S128x1_S256x1_d0) broadcasts_S256x1_S256x2048)
    (broadcastTo S256x2048 v6 broadcasts_S1x2048_S256x2048)) natLt_1_32)) bitsLt_bf16_f32

/-- At a low position the table tells whether the word of chunk row `c0`, lane `l`, is the column's station … -/
theorem occBlock_lo (i : grid0.Coords) (s : Vec Ideal S8x128 .i32) (o0 o1 : ℕ) (h0 : S128x8.Slices ![0, o0] S128x1)
    (h1 : S128x8.Slices ![0, o1] S128x1) (c0 : Fin 8) (hc0 : c0.val = o0) (l : Fin 128) (q : Fin 2048) :
    occBlock (k0_pay2 i) (k0_pay11 s) o0 o1 h0 h1 (ix2 (lo l) q) = member (s (ix2 c0 l)) ((i 0).val * 2048 + q.val) := by
  unfold occBlock
  rw [occ_apply _ _ _ _ _ _ (lo l) q _ (station_apply i 0 q), wordcol_lo _ o0 o1 h0 h1 _ c0 hc0 l, pay11_apply]

/-- … and at a high position the word of chunk row `c1`. -/
theorem occBlock_hi (i : grid0.Coords) (s : Vec Ideal S8x128 .i32) (o0 o1 : ℕ) (h0 : S128x8.Slices ![0, o0] S128x1)
    (h1 : S128x8.Slices ![0, o1] S128x1) (c1 : Fin 8) (hc1 : c1.val = o1) (l : Fin 128) (q : Fin 2048) :
    occBlock (k0_pay2 i) (k0_pay11 s) o0 o1 h0 h1 (ix2 (hi l) q) = member (s (ix2 c1 l)) ((i 0).val * 2048 + q.val) := by
  unfold occBlock
  rw [occ_apply _ _ _ _ _ _ (hi l) q _ (station_apply i 0 q), wordcol_hi _ o0 o1 h0 h1 _ c1 hc1 l, pay11_apply]

/-- The product of a data block and a table into the zero accumulator. -/
def pairProd (D : FVec Ideal S8x256 .f32) (O : FVec Ideal S256x2048 .bf16) : FVec Ideal S8x2048 .f32 :=
  matmul dot_S8x256_S256x2048_S8x2048_1_0_0_1_n_n none (truncf .bf16 D bitsLt_bf16_f32) O (constant S8x2048 .f32 0x00000000#32)

/-- What chunk row `row` adds to data row `r` of column `q`. -/
def rowTerm (i : grid0.Coords) (t p : Vec Ideal S8x128 .f32) (s : Vec Ideal S8x128 .i32) (r : Fin 8) (q : Fin 2048)
    (row : Fin 8) : EReal :=
  ∑ l : Fin 128, quantity r.val (t (ix2 row l)) (p (ix2 row l)) * member (s (ix2 row l)) ((i 0).val * 2048 + q.val)

/-- A row pair's product at `(r, q)` is what its two chunk rows add: the contraction over 256 positions splits into
    the two rows' 128 lanes. -/
theorem pairProd_apply (i : grid0.Coords) (t p : Vec Ideal S8x128 .f32) (s : Vec Ideal S8x128 .i32) (oA oB : ℕ)
    (hA : S8x128.Slices ![oA, 0] S1x128) (hB : S8x128.Slices ![oB, 0] S1x128)
    (h0 : S128x8.Slices ![0, oA] S128x1) (h1 : S128x8.Slices ![0, oB] S128x1)
    (rowA rowB : Fin 8) (hrA : rowA.val = oA) (hrB : rowB.val = oB) (r : Fin 8) (q : Fin 2048) :
    pairProd (dataBlock k0_pay3 k0_pay4 (k0_pay8 t) (k0_pay10 t) (k0_pay9 t p) oA oB hA hB)
        (occBlock (k0_pay2 i) (k0_pay11 s) oA oB h0 h1) (ix2 r q)
      = rowTerm i t p s r q rowA + rowTerm i t p s r q rowB := by
  unfold pairProd
  refine (Cert.LibRowOps.matmul_plain_apply _ dot_plain none _ _ r q).trans ?_
  rw [sum_halves]
  unfold rowTerm
  congr 1
  · refine Finset.sum_congr rfl fun l _ => ?_
    rw [truncf_apply, dataBlock_lo t p oA oB hA hB rowA hrA r l, occBlock_lo i s oA oB h0 h1 rowA hrA l q]
  · refine Finset.sum_congr rfl fun l _ => ?_
    rw [truncf_apply, dataBlock_hi t p oA oB hA hB rowB hrB r l, occBlock_hi i s oA oB h0 h1 rowB hrB l q]

/-- The stored value as the body composes it: the accumulator plus the four row pairs' products, added to a zero
    splat one after the other. -/
theorem tripVal_eq (i : grid0.Coords) (t p : Vec Ideal S8x128 .f32) (s : Vec Ideal S8x128 .i32) (a : Vec Ideal S8x2048 .f32) :
    tripVal (F := Ideal) i t p s a
      = shapeCast S8x2048 (addf a (addf (addf (addf (addf (broadcast S8x2048 (Scalar.ofBits (F := Ideal) .f32 0x00000000#32))
          (pairProd (dataBlock k0_pay3 k0_pay4 (k0_pay8 t) (k0_pay10 t) (k0_pay9 t p) 0 1 (by decide) (by decide))
            (occBlock (k0_pay2 i) (k0_pay11 s) 0 1 (by decide) (by decide))))
          (pairProd (dataBlock k0_pay3 k0_pay4 (k0_pay8 t) (k0_pay10 t) (k0_pay9 t p) 2 3 (by decide) (by decide))
            (occBlock (k0_pay2 i) (k0_pay11 s) 2 3 (by decide) (by decide))))
          (pairProd (dataBlock k0_pay3 k0_pay4 (k0_pay8 t) (k0_pay10 t) (k0_pay9 t p) 4 5 (by decide) (by decide))
            (occBlock (k0_pay2 i) (k0_pay11 s) 4 5 (by decide) (by decide))))
          (pairProd (dataBlock k0_pay3 k0_pay4 (k0_pay8 t) (k0_pay10 t) (k0_pay9 t p) 6 7 (by decide) (by decide))
            (occBlock (k0_pay2 i) (k0_pay11 s) 6 7 (by decide) (by decide))))) shapeCasts_S8x2048_S8x2048 := rfl

end TripValueAux

open TripValueAux in
theorem tripVal_apply (i : grid0.Coords) (t p : Vec Ideal S8x128 .f32) (s : Vec Ideal S8x128 .i32)
    (a : Vec Ideal S8x2048 .f32) (r : Fin 8) (q : Fin 2048) :
    tripVal (F := Ideal) i t p s a (ix2 r q)
      = a (ix2 r q) + ∑ row : Fin 8, ∑ l : Fin 128,
          quantity r.val (t (ix2 row l)) (p (ix2 row l)) * member (s (ix2 row l)) ((i 0).val * 2048 + q.val) := by
  rw [tripVal_eq, shapeCast_self]
  show a (ix2 r q) + ((((Scalar.ofBits (F := Ideal) .f32 0x00000000#32 + pairProd _ _ (ix2 r q)) + pairProd _ _ (ix2 r q))
    + pairProd _ _ (ix2 r q)) + pairProd _ _ (ix2 r q)) = _
  rw [pairProd_apply i t p s 0 1 _ _ _ _ 0 1 rfl rfl r q, pairProd_apply i t p s 2 3 _ _ _ _ 2 3 rfl rfl r q,
    pairProd_apply i t p s 4 5 _ _ _ _ 4 5 rfl rfl r q, pairProd_apply i t p s 6 7 _ _ _ _ 6 7 rfl rfl r q,
    show Scalar.ofBits (F := Ideal) .f32 0x00000000#32 = (0 : EReal) from Ideal.ofBits_zero_f32, zero_add,
    Fin.sum_univ_eight]
  simp only [rowTerm, add_assoc]

end Cert.KernelIdeal.Trip

end
-- ==== Proof.BlockSum.lean ====
/-
  The loop's accumulator at an entry, at the extended reals: the contents at the loop's entry plus, over the
  rows of the block the trips so far have read, data row `r` of each sample times the factor that is one when
  the sample's word is the column's station. Trip `k` reads rows `8 k` to `8 k + 7` of the block, so after `k`
  trips the rows are the first `8 k`.
-/
import proofs.«412645_j54546084659704_2_alg».proof.Proof.Cases
import proofs.«412645_j54546084659704_2_alg».proof.Proof.TripValue
import proofs.«412645_j54546084659704_2_alg».proof.Proof.Spec

set_option maxRecDepth 16384

noncomputable section

namespace Cert.KernelIdeal.Trip

open Cert.KernelIdeal Cert.KernelIdeal.Gen Cert.SegStats
open Idealize.ShloMosaic Idealize.ShloMosaic.ValueIdx
open scoped BigOperators

theorem trips_le : k0_t1_loop.trips ≤ 64 := k0_t1_abs.2.1

theorem trips_eq : k0_t1_loop.trips = 64 := by decide +kernel

/-- A trip's chunk is eight consecutive rows of the block. -/
theorem chunk_apply {e : EltTy} (X : S512x128.Idx → Elt Ideal e) (k : Fin k0_t1_loop.trips) (row : Fin 8) (l : Fin 128) :
    View.ld X (chunkRect k) (ix2 row l)
      = X (ix2 ⟨8 * k.val + row.val, by have := Nat.lt_of_lt_of_le k.isLt trips_le; have := row.isLt; omega⟩ l) := by
  show X ((chunkRect k).toLoadRect.idx (ix2 row l)) = _
  refine congrArg X (funext fun a => Fin.ext ?_)
  match a with
  | ⟨0, _⟩ =>
    show k0_off1 k 0 + 1 * row.val = 8 * k.val + row.val
    rw [k0_off1_eq k]
    show 8 * k.val + 1 * row.val = 8 * k.val + row.val
    omega
  | ⟨1, _⟩ =>
    show k0_off1 k 1 + 1 * l.val = l.val
    rw [k0_off1_eq k]
    show 0 + 1 * l.val = l.val
    omega

/-- What row `j` of a block adds to sum `r` of station `s` (nothing past the block's last row). -/
def blockRow (T P : Vec Ideal S512x128 .f32) (S : Vec Ideal S512x128 .i32) (r s j : ℕ) : EReal :=
  if h : j < 512 then
    ∑ l : Fin 128, quantity r (T (ix2 ⟨j, h⟩ l)) (P (ix2 ⟨j, h⟩ l)) * member (S (ix2 ⟨j, h⟩ l)) s
  else 0

theorem loopAcc_apply (i : grid0.Coords) (T P : Vec Ideal S512x128 .f32) (S : Vec Ideal S512x128 .i32)
    (a : Vec Ideal S8x2048 .f32) (r : Fin 8) (q : Fin 2048) :
    ∀ k, k ≤ k0_t1_loop.trips →
      loopAcc (F := Ideal) i T P S a k (ix2 r q)
        = a (ix2 r q) + ∑ j ∈ Finset.range (8 * k), blockRow T P S r.val ((i 0).val * 2048 + q.val) j
  | 0, _ => by
    show a (ix2 r q) = a (ix2 r q) + ∑ j ∈ Finset.range 0, _
    rw [Finset.range_zero, Finset.sum_empty, add_zero]
  | k + 1, hk => by
    have h : k < k0_t1_loop.trips := hk
    have h64 : k < 64 := Nat.lt_of_lt_of_le h trips_le
    have ih := loopAcc_apply i T P S a r q k (Nat.le_of_lt h)
    refine (congrFun (loopAcc_succ i T P S a ⟨k, h⟩) (ix2 r q)).trans ?_
    refine (tripVal_apply i _ _ _ _ r q).trans ?_
    rw [show loopAcc (F := Ideal) i T P S a (⟨k, h⟩ : Fin k0_t1_loop.trips).val (ix2 r q) = _ from ih,
      show 8 * (k + 1) = 8 * k + 8 from by omega, Finset.sum_range_add, add_assoc]
    congr 2
    rw [Finset.sum_range]
    refine Finset.sum_congr rfl fun row _ => ?_
    have hrow := row.isLt
    rw [blockRow, dif_pos (by omega)]
    refine Finset.sum_congr rfl fun l _ => ?_
    rw [chunk_apply, chunk_apply, chunk_apply]

/-- After the whole loop: the entry contents plus the sum over all 512 rows of the block. -/
theorem loopAcc_full (i : grid0.Coords) (T P : Vec Ideal S512x128 .f32) (S : Vec Ideal S512x128 .i32)
    (a : Vec Ideal S8x2048 .f32) (r : Fin 8) (q : Fin 2048) :
    loopAcc (F := Ideal) i T P S a k0_t1_loop.trips (ix2 r q)
      = a (ix2 r q) + ∑ j ∈ Finset.range 512, blockRow T P S r.val ((i 0).val * 2048 + q.val) j := by
  refine (loopAcc_apply i T P S a r q _ le_rfl).trans ?_
  rw [trips_eq]

end Cert.KernelIdeal.Trip

end
-- ==== Proof.HostSide.lean ====
/-
  The host side of the kernel's program around the region, at the extended reals.
  Before the region the three flat arrays are re-laid as 65536 rows of 128 lanes, and the block a grid point
  `t` stages holds rows `512 (t mod 128)` onward: `*_apply` read an entry of a block as an entry of the flat
  argument array. After the region four entries of the 2 × 8 × 128 output are cut out: the two cores' loss
  totals are added, the two counts of present stations are added, and the quotient by the larger of that count
  and one is the result: `tail_result`.
-/
import proofs.«412645_j54546084659704_2_alg».proof.Proof.Gen.KernelIdeal.Frame
import proofs.«412645_j54546084659704_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Host

open Cert.KernelIdeal Cert.KernelIdeal.Gen Cert.SegStats Idealize.ShloMosaic Idealize.ShloMosaic.TcCoe Idealize.ShloMosaic.ValueIdx Idealize.SL.Sem
open scoped BigOperators

variable (m : (ℓ : Loc nD τ sig) → Buf (Elt Ideal) ℓ)

/-- The three argument arrays, at their literal types. -/
abbrev predArr (c : Dev nD) : FVec Ideal S8388608 .f32 := m ((c.tc : Thread nD τ).loc main_arg0)
abbrev targArr (c : Dev nD) : FVec Ideal S8388608 .f32 := m ((c.tc : Thread nD τ).loc main_arg1)
abbrev wordArr (c : Dev nD) : IVec S8388608 32 := m ((c.tc : Thread nD τ).loc main_arg2)

/-- The blocks grid point `t` stages, at their literal types. -/
abbrev predBlk (c : Dev nD) (t : Fin cfg0.N) : Vec Ideal S512x128 .f32 := iblk m c 0 t
abbrev targBlk (c : Dev nD) (t : Fin cfg0.N) : Vec Ideal S512x128 .f32 := iblk m c 1 t
abbrev wordBlk (c : Dev nD) (t : Fin cfg0.N) : Vec Ideal S512x128 .i32 := iblk m c 2 t

/-- The re-laid prediction array is the flat argument array cast to 65536 rows of 128 lanes. -/
theorem predRows_eq (c : Dev nD) :
    (V m c main_call0_v0 : S65536x128.Idx → EReal)
      = shapeCast S65536x128 (predArr m c) shapeCasts_S8388608_S65536x128 := by
  show StableHlo.after hostOps0 (fun b => m (c, b)) (Proc.devRef .tc main_call0_v0) = _
  after_results
  rfl

/-- Grid point `t` stages row block `t mod 128`, column block `0`, of the re-laid prediction array. -/
theorem predIndex : ∀ t : Fin cfg0.N, win0_0.index t (0 : Fin 2) = t.val % 128 ∧ win0_0.index t (1 : Fin 2) = 0 :=
  (by decide +kernel : ∀ t : Fin grid0.N, win0_0.index t (0 : Fin 2) = t.val % 128 ∧ win0_0.index t (1 : Fin 2) = 0)

/-- Entry `(y, l)` of the block at grid point `t` is entry `(512 (t mod 128) + y, l)` of the re-laid array: a block's
    coordinate in the array is the block index times the block size plus the coordinate inside the block. -/
theorem predBlk_rows (c : Dev nD) (t : Fin cfg0.N) (y : Fin 512) (l : Fin 128) :
    predBlk m c t (ix2 y l)
      = (V m c main_call0_v0 : S65536x128.Idx → EReal)
          (ix2 (⟨512 * (t.val % 128) + y.val, by have := y.isLt; omega⟩ : Fin 65536) l) := by
  show V m c main_call0_v0 (((cfg0.win 0).blk t).view.emb (ix2 y l)) = V m c main_call0_v0 _
  refine congrArg (V m c main_call0_v0) (funext fun a => Fin.ext ?_)
  match a with
  | ⟨0, _⟩ =>
    show win0_0.index t (0 : Fin 2) * 512 + 1 * y.val = 512 * (t.val % 128) + y.val
    rw [(predIndex t).1]; omega
  | ⟨1, _⟩ =>
    show win0_0.index t (1 : Fin 2) * 128 + 1 * l.val = l.val
    rw [(predIndex t).2]; omega

theorem predBlk_apply (c : Dev nD) (t : Fin cfg0.N) (y : Fin 512) (l : Fin 128) :
    predBlk m c t (ix2 y l)
      = predArr m c (sample ⟨512 * (t.val % 128) + y.val, by have := y.isLt; omega⟩ l) := by
  -- the block entry is row `512 (t mod 128) + y`, lane `l` of the re-laid array, whose flat position is 128 · row + lane
  refine (predBlk_rows m c t y l).trans ?_
  refine (congrFun (predRows_eq m c) _).trans ?_
  refine shapeCast_apply (predArr m c) shapeCasts_S8388608_S65536x128 _ _ ?_
  rw [Shape.rowMajor_val_two, Shape.rowMajor_val_one]
  show 128 * (512 * (t.val % 128) + y.val) + l.val = (512 * (t.val % 128) + y.val) * 128 + l.val
  omega

/-- The re-laid target array is the flat argument array cast to 65536 rows of 128 lanes. -/
theorem targRows_eq (c : Dev nD) :
    (V m c main_call0_v1 : S65536x128.Idx → EReal)
      = shapeCast S65536x128 (targArr m c) shapeCasts_S8388608_S65536x128 := by
  show StableHlo.after hostOps0 (fun b => m (c, b)) (Proc.devRef .tc main_call0_v1) = _
  after_results
  rfl

/-- Grid point `t` stages row block `t mod 128`, column block `0`, of the re-laid target array. -/
theorem targIndex : ∀ t : Fin cfg0.N, win0_1.index t (0 : Fin 2) = t.val % 128 ∧ win0_1.index t (1 : Fin 2) = 0 :=
  (by decide +kernel : ∀ t : Fin grid0.N, win0_1.index t (0 : Fin 2) = t.val % 128 ∧ win0_1.index t (1 : Fin 2) = 0)

/-- Entry `(y, l)` of the block at grid point `t` is entry `(512 (t mod 128) + y, l)` of the re-laid array: a block's
    coordinate in the array is the block index times the block size plus the coordinate inside the block. -/
theorem targBlk_rows (c : Dev nD) (t : Fin cfg0.N) (y : Fin 512) (l : Fin 128) :
    targBlk m c t (ix2 y l)
      = (V m c main_call0_v1 : S65536x128.Idx → EReal)
          (ix2 (⟨512 * (t.val % 128) + y.val, by have := y.isLt; omega⟩ : Fin 65536) l) := by
  show V m c main_call0_v1 (((cfg0.win 1).blk t).view.emb (ix2 y l)) = V m c main_call0_v1 _
  refine congrArg (V m c main_call0_v1) (funext fun a => Fin.ext ?_)
  match a with
  | ⟨0, _⟩ =>
    show win0_1.index t (0 : Fin 2) * 512 + 1 * y.val = 512 * (t.val % 128) + y.val
    rw [(targIndex t).1]; omega
  | ⟨1, _⟩ =>
    show win0_1.index t (1 : Fin 2) * 128 + 1 * l.val = l.val
    rw [(targIndex t).2]; omega

theorem targBlk_apply (c : Dev nD) (t : Fin cfg0.N) (y : Fin 512) (l : Fin 128) :
    targBlk m c t (ix2 y l)
      = targArr m c (sample ⟨512 * (t.val % 128) + y.val, by have := y.isLt; omega⟩ l) := by
  -- the block entry is row `512 (t mod 128) + y`, lane `l` of the re-laid array, whose flat position is 128 · row + lane
  refine (targBlk_rows m c t y l).trans ?_
  refine (congrFun (targRows_eq m c) _).trans ?_
  refine shapeCast_apply (targArr m c) shapeCasts_S8388608_S65536x128 _ _ ?_
  rw [Shape.rowMajor_val_two, Shape.rowMajor_val_one]
  show 128 * (512 * (t.val % 128) + y.val) + l.val = (512 * (t.val % 128) + y.val) * 128 + l.val
  omega

/-- The re-laid station-word array is the flat argument array cast to 65536 rows of 128 lanes. -/
theorem wordRows_eq (c : Dev nD) :
    (V m c main_call0_v2 : S65536x128.Idx → BitVec 32)
      = shapeCast S65536x128 (wordArr m c) shapeCasts_S8388608_S65536x128 := by
  show StableHlo.after hostOps0 (fun b => m (c, b)) (Proc.devRef .tc main_call0_v2) = _
  after_results
  rfl

/-- Grid point `t` stages row block `t mod 128`, column block `0`, of the re-laid station-word array. -/
theorem wordIndex : ∀ t : Fin cfg0.N, win0_2.index t (0 : Fin 2) = t.val % 128 ∧ win0_2.index t (1 : Fin 2) = 0 :=
  (by decide +kernel : ∀ t : Fin grid0.N, win0_2.index t (0 : Fin 2) = t.val % 128 ∧ win0_2.index t (1 : Fin 2) = 0)

/-- Entry `(y, l)` of the block at grid point `t` is entry `(512 (t mod 128) + y, l)` of the re-laid array: a block's
    coordinate in the array is the block index times the block size plus the coordinate inside the block. -/
theorem wordBlk_rows (c : Dev nD) (t : Fin cfg0.N) (y : Fin 512) (l : Fin 128) :
    wordBlk m c t (ix2 y l)
      = (V m c main_call0_v2 : S65536x128.Idx → BitVec 32)
          (ix2 (⟨512 * (t.val % 128) + y.val, by have := y.isLt; omega⟩ : Fin 65536) l) := by
  show V m c main_call0_v2 (((cfg0.win 2).blk t).view.emb (ix2 y l)) = V m c main_call0_v2 _
  refine congrArg (V m c main_call0_v2) (funext fun a => Fin.ext ?_)
  match a with
  | ⟨0, _⟩ =>
    show win0_2.index t (0 : Fin 2) * 512 + 1 * y.val = 512 * (t.val % 128) + y.val
    rw [(wordIndex t).1]; omega
  | ⟨1, _⟩ =>
    show win0_2.index t (1 : Fin 2) * 128 + 1 * l.val = l.val
    rw [(wordIndex t).2]; omega

theorem wordBlk_apply (c : Dev nD) (t : Fin cfg0.N) (y : Fin 512) (l : Fin 128) :
    wordBlk m c t (ix2 y l)
      = wordArr m c (sample ⟨512 * (t.val % 128) + y.val, by have := y.isLt; omega⟩ l) := by
  -- the block entry is row `512 (t mod 128) + y`, lane `l` of the re-laid array, whose flat position is 128 · row + lane
  refine (wordBlk_rows m c t y l).trans ?_
  refine (congrFun (wordRows_eq m c) _).trans ?_
  refine shapeCast_apply (wordArr m c) shapeCasts_S8388608_S65536x128 _ _ ?_
  rw [Shape.rowMajor_val_two, Shape.rowMajor_val_one]
  show 128 * (512 * (t.val % 128) + y.val) + l.val = (512 * (t.val % 128) + y.val) * 128 + l.val
  omega

/-- A one-entry array cast to a scalar reads its one entry. -/
theorem scalarCast_apply {α : Type} (x : S1x1x1.Idx → α) (j : S_.Idx) :
    shapeCast S_ x shapeCasts_S1x1x1_S_ j = x (ix3 0 0 0) :=
  shapeCast_apply x shapeCasts_S1x1x1_S_ j (ix3 0 0 0) (by
    rw [Shape.rowMajor_val_three]
    have h0 : (S_.rowMajor j).val = 0 := Shape.rowMajorPi_zero _ _
    rw [h0]
    rfl)

/-- The one-entry slice of the output at offset `(a, b, l)`, cast to a scalar, is the output's entry `(a, b, l)`. -/
theorem cornerScalar_apply {α : Type} (x : S2x8x128.Idx → α) (off : Fin 3 → ℕ) (h : S2x8x128.Slices off S1x1x1)
    (a : Fin 2) (b : Fin 8) (l : Fin 128) (h0 : off 0 = a.val) (h1 : off 1 = b.val) (h2 : off 2 = l.val) (j : S_.Idx) :
    shapeCast S_ (extractStridedSlice S1x1x1 off x h) shapeCasts_S1x1x1_S_ j = x (ix3 a b l) :=
  (scalarCast_apply _ j).trans
    (extractStridedSlice_apply off x h (ix3 (0 : Fin 1) (0 : Fin 1) (0 : Fin 1)) (ix3 a b l) fun d =>
      match d with
      | ⟨0, _⟩ => by show a.val = off 0 + 0; omega
      | ⟨1, _⟩ => by show b.val = off 1 + 0; omega
      | ⟨2, _⟩ => by show l.val = off 2 + 0; omega)

/-- The program's result from the output array `G` the region leaves. -/
theorem tail_result (c : Dev nD) (G : FVec Ideal S2x8x128 .f32)
    (hfin : (dats (F := Ideal) m 0 c).arrAt 3 cfg0.N = G) (j : S_.Idx) :
    Pipeline.afterTail₀ cfgs (dats m) 0 (V0 m) [hostOps1] c main_v0 j
      = FloatOps.hostDivf (F := Ideal) (φ := .f32) (G (ix3 0 0 0) + G (ix3 1 0 0))
          (FloatOps.maximumf (F := Ideal) (φ := .f32) (G (ix3 0 1 0) + G (ix3 1 1 0)) (lit 0x3F800000#32)) := by
  -- the output array as the tail finds it is what the region leaves
  have hA : (Pipeline.withArrays (cfgs 0).spec c (V0 m c) (fun w => (dats m 0 c).arrAt w (cfgs 0).N)
      (Proc.devRef .tc main_call0_v3) : FVec Ideal S2x8x128 .f32) = G :=
    (Pipeline.withArrays_arr spec0 launch0.win.arr_inj c _ _ 3).trans hfin
  unfold Pipeline.afterTail₀
  show StableHlo.after hostOps1 _ (Proc.devRef .tc main_v0) j = _
  after_results
  show FloatOps.hostDivf (F := Ideal) (φ := .f32)
      (FloatOps.addf (F := Ideal) (φ := .f32)
        (shapeCast S_ (extractStridedSlice S1x1x1 ![0, 0, 0]
          (Pipeline.withArrays (cfgs 0).spec c (V0 m c) (fun w => (dats m 0 c).arrAt w (cfgs 0).N)
            (Proc.devRef .tc main_call0_v3) : FVec Ideal S2x8x128 .f32) slices_S2x8x128_S1x1x1_0_0_0) shapeCasts_S1x1x1_S_ j)
        (shapeCast S_ (extractStridedSlice S1x1x1 ![1, 0, 0]
          (Pipeline.withArrays (cfgs 0).spec c (V0 m c) (fun w => (dats m 0 c).arrAt w (cfgs 0).N)
            (Proc.devRef .tc main_call0_v3) : FVec Ideal S2x8x128 .f32) slices_S2x8x128_S1x1x1_1_0_0) shapeCasts_S1x1x1_S_ j))
      (FloatOps.maximumf (F := Ideal) (φ := .f32)
        (FloatOps.addf (F := Ideal) (φ := .f32)
          (shapeCast S_ (extractStridedSlice S1x1x1 ![0, 1, 0]
            (Pipeline.withArrays (cfgs 0).spec c (V0 m c) (fun w => (dats m 0 c).arrAt w (cfgs 0).N)
              (Proc.devRef .tc main_call0_v3) : FVec Ideal S2x8x128 .f32) slices_S2x8x128_S1x1x1_0_1_0) shapeCasts_S1x1x1_S_ j)
          (shapeCast S_ (extractStridedSlice S1x1x1 ![1, 1, 0]
            (Pipeline.withArrays (cfgs 0).spec c (V0 m c) (fun w => (dats m 0 c).arrAt w (cfgs 0).N)
              (Proc.devRef .tc main_call0_v3) : FVec Ideal S2x8x128 .f32) slices_S2x8x128_S1x1x1_1_1_0) shapeCasts_S1x1x1_S_ j))
        (lit 0x3F800000#32)) = _
  rw [hA]
  -- each scalar is one entry of the output; the host's sum of two scalars is their sum
  have e00 := cornerScalar_apply G ![0, 0, 0] slices_S2x8x128_S1x1x1_0_0_0 0 0 0 rfl rfl rfl j
  have e10 := cornerScalar_apply G ![1, 0, 0] slices_S2x8x128_S1x1x1_1_0_0 1 0 0 rfl rfl rfl j
  have e01 := cornerScalar_apply G ![0, 1, 0] slices_S2x8x128_S1x1x1_0_1_0 0 1 0 rfl rfl rfl j
  have e11 := cornerScalar_apply G ![1, 1, 0] slices_S2x8x128_S1x1x1_1_1_0 1 1 0 rfl rfl rfl j
  rw [e00, e10, e01, e11]
  rfl

end Cert.KernelIdeal.Host

end
-- ==== Proof.Finalize.lean ====
/-
  What the last point of a core's sweep writes into its output block, from the four accumulator rows: the sum
  over the core's 2048 stations of the station's loss, and the number of stations present.
-/
import proofs.«412645_j54546084659704_2_alg».proof.Proof.Gen.KernelIdeal.Skeleton
import proofs.«412645_j54546084659704_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Finalize

open Cert.KernelIdeal Cert.KernelIdeal.Gen Cert.SegStats Idealize.ShloMosaic Idealize.ShloMosaic.ValueIdx
open scoped BigOperators

/-! ## The lane sum and the two unit-axis casts around it -/

/-- The sum over the lanes of a one-row array, read at its one index, is the sum of the row's 2048 entries: the
    reduced axis has 2048 coordinates, and the index with coordinate `q` inserted on it is `(0, q)`. -/
theorem laneSum (v : FVec Ideal S1x2048 .f32) (hφ : FKind.Formats .f32)
    (hacc : (0x00000000#32 : BitVec 32) = 0x00000000#32) :
    multiReduction .add [1] S1 v 0x00000000#32 reduces_S1x2048_S1 hφ hacc (ix1 0)
      = ∑ q : Fin 2048, v (ix2 0 q) := by
  refine (Ideal.multiReduction_add_single v 0x00000000#32 reduces_S1x2048_S1 hφ hacc (ix1 0)).trans ?_
  refine Finset.sum_congr rfl fun q _ => congrArg v ?_
  funext c; match c with | ⟨0, _⟩ => rfl | ⟨1, _⟩ => rfl

/-- Viewing the one-entry result as `[1, 1]` and then as `[1, 1, 1]` adds unit axes only, so the entry at
    `(0, 0, 0)` is still the sum of the row. -/
theorem cast_laneSum (v : FVec Ideal S1x2048 .f32) (hφ : FKind.Formats .f32)
    (hacc : (0x00000000#32 : BitVec 32) = 0x00000000#32) :
    shapeCast S1x1x1
        (shapeCast S1x1 (multiReduction .add [1] S1 v 0x00000000#32 reduces_S1x2048_S1 hφ hacc) shapeCasts_S1_S1x1)
        shapeCasts_S1x1_S1x1x1 (ix3 0 0 0)
      = ∑ q : Fin 2048, v (ix2 0 q) := by
  refine (shapeCast_ab_1ab_apply _ _ 0 0 0).trans ?_
  refine (shapeCast_a_1a_apply _ _ 0 0).trans ?_
  exact laneSum v hφ hacc

/-- A one-bit word widened with zeros to 32 bits and read as a signed integer is the bit read as a natural number:
    `0` stays `0` and `1` stays `1`, the sign bit of the wide word being clear. -/
theorem bit_toInt : ∀ b : BitVec 1, (b.setWidth 32).toInt = (b.toNat : ℤ) := by decide

/-- The entry stored at `[0, 0, 0]` of the output block: the losses of the core's stations, summed. -/
theorem total_apply (cnt st st2 ssr : Vec Ideal S1x2048 .f32) :
    k0_pay6 (F := Ideal) (k0_pay21 cnt st st2 ssr) (ix3 0 0 0)
      = ∑ q : Fin 2048, stationValue (cnt (ix2 0 q)) (st (ix2 0 q)) (st2 (ix2 0 q)) (ssr (ix2 0 q)) := by
  -- The casts and the lane sum leave a sum over the stations; at each station every vector operation reads as
  -- its scalar operation on the station's four sums, applied in the order `stationValue` applies them, and the
  -- two divisions are the same function of the extended reals.
  unfold k0_pay6 k0_pay21
  refine (cast_laneSum _ (.inl rfl) rfl).trans ?_
  refine Finset.sum_congr rfl fun q _ => ?_
  rfl

/-- The entry stored at `[0, 1, 0]`: how many of the core's stations have a sample. -/
theorem present_apply (cnt : Vec Ideal S1x2048 .f32) :
    k0_pay7 (F := Ideal) (k0_pay20 cnt) (ix3 0 0 0) = ∑ q : Fin 2048, stationPresent (cnt (ix2 0 q)) := by
  -- At each station the comparison's bit is widened to 32 bits and converted as a signed integer; that is the
  -- bit itself read unsigned (`bit_toInt`), which is what `stationPresent` converts.
  unfold k0_pay7 k0_pay20
  refine (cast_laneSum _ (.inl rfl) rfl).trans ?_
  refine Finset.sum_congr rfl fun q _ => ?_
  show (((((k0_pay19 (F := Ideal) cnt) (ix2 0 q)).setWidth 32).toInt : ℝ) : EReal) = _
  rw [bit_toInt, Int.cast_natCast]
  rfl

/-- The fill of the rest of the block is zero. -/
theorem fill_apply (y : S1x8x128.Idx) : k0_pay22 (F := Ideal) y = 0 := by
  -- A splat reads its scalar everywhere, and the zero word denotes `0`.
  show Ideal.ofBits .f32 0x00000000#32 = 0
  exact Ideal.ofBits_zero_f32

/-- The reset of the accumulator at a core's first point is zero. -/
theorem reset_apply (y : S8x2048.Idx) : k0_pay1 (F := Ideal) y = 0 := by
  -- A cast to the same shape is the identity, so this is again a splat of the zero word.
  unfold k0_pay1
  rw [shapeCast_self]
  exact Ideal.ofBits_zero_f32

end Cert.KernelIdeal.Finalize

end
-- ==== Proof.PointAcc.lean ====
/-
  The accumulator point by point, at the extended reals.

  Core `n / 128` sweeps the 128 row blocks; at its point `n` it has read rows `0 … 512 (n mod 128 + 1) - 1`, and
  its accumulator holds, at row `r` and column `q`, sum `r` of station `2048 (n / 128) + q` over those rows
  (`acc_point`, by induction on the point: a core's first point starts from the zero fill, every other point
  from what the point before left, and a point adds its block's 512 rows). At the core's last point all 65536
  rows have been read, and the output block's two entries are the losses summed over the core's stations and the
  number of its stations present (`out_total`, `out_present`).
-/
import proofs.«412645_j54546084659704_2_alg».proof.Proof.BlockSum
import proofs.«412645_j54546084659704_2_alg».proof.Proof.HostSide
import proofs.«412645_j54546084659704_2_alg».proof.Proof.Finalize

set_option maxRecDepth 16384

noncomputable section

namespace Cert.KernelIdeal.Points

open Cert.KernelIdeal Cert.KernelIdeal.Gen Cert.KernelIdeal.Trip Cert.KernelIdeal.Host Cert.KernelIdeal.Finalize Cert.SegStats
open Idealize.ShloMosaic Idealize.ShloMosaic.TcCoe Idealize.ShloMosaic.ValueIdx Idealize.SL.Sem
open scoped BigOperators

variable (m : (ℓ : Loc nD τ sig) → Buf (Elt Ideal) ℓ)

/-- The grid is 2 cores by 128 row blocks, the block moving fastest. -/
theorem coords_facts : ∀ t : Fin cfg0.N, (grid0.coords t 0).val = t.val / 128 ∧ (grid0.coords t 1).val = t.val % 128 :=
  (by decide +kernel : ∀ t : Fin grid0.N, (grid0.coords t 0).val = t.val / 128 ∧ (grid0.coords t 1).val = t.val % 128)

theorem N_eq : cfg0.N = 256 := N_0

/-- The scratch after point `n`, at its literal type. -/
abbrev accAfter (c : Dev nD) (n : ℕ) (hn : n < cfg0.N) : Vec Ideal S8x2048 .f32 := (outsAt0 (F := Ideal) m c n hn).2

/-- A block's row is a row of the flat arrays. -/
theorem blockRow_eq (c : Dev nD) (t : Fin cfg0.N) (r s j : ℕ) (hj : j < 512) :
    blockRow (targBlk m c t) (predBlk m c t) (wordBlk m c t) r s j
      = rowStat (predArr m c) (targArr m c) (wordArr m c) r s (512 * (t.val % 128) + j) := by
  rw [blockRow, dif_pos hj]
  have hlt : 512 * (t.val % 128) + j < 65536 := by omega
  refine Eq.trans ?_ (rowStat_of_lt (predArr m c) (targArr m c) (wordArr m c) r s ⟨512 * (t.val % 128) + j, hlt⟩).symm
  refine Finset.sum_congr rfl fun l _ => ?_
  rw [targBlk_apply m c t ⟨j, hj⟩ l, predBlk_apply m c t ⟨j, hj⟩ l, wordBlk_apply m c t ⟨j, hj⟩ l]

/-- A point's 512 rows, added to the sums over the rows before them. -/
theorem block_sum (c : Dev nD) (t : Fin cfg0.N) (r s : ℕ) :
    stat (predArr m c) (targArr m c) (wordArr m c) r s (512 * (t.val % 128))
        + ∑ j ∈ Finset.range 512, blockRow (targBlk m c t) (predBlk m c t) (wordBlk m c t) r s j
      = stat (predArr m c) (targArr m c) (wordArr m c) r s (512 * (t.val % 128 + 1)) := by
  rw [show 512 * (t.val % 128 + 1) = 512 * (t.val % 128) + 512 from by omega, stat_add]
  congr 1
  exact Finset.sum_congr rfl fun j hj => blockRow_eq m c t r s j (Finset.mem_range.mp hj)

theorem acc_point (c : Dev nD) : ∀ (n : ℕ) (hn : n < cfg0.N) (r : Fin 8) (q : Fin 2048),
    accAfter m c n hn (ix2 r q)
      = stat (predArr m c) (targArr m c) (wordArr m c) r.val ((n / 128) * 2048 + q.val) (512 * (n % 128 + 1)) := by
  intro n
  induction n using Nat.strong_induction_on with
  | _ n ih =>
    intro hn r q
    have hN : n < 256 := lt_of_lt_of_eq hn N_eq
    obtain ⟨hc0, hc1⟩ := coords_facts ⟨n, hn⟩
    by_cases h0 : n % 128 = 0
    · have h1 : ¬ n % 128 = 127 := by omega
      show (outsAt0 (F := Ideal) m c (⟨n, hn⟩ : Fin cfg0.N).val (⟨n, hn⟩ : Fin cfg0.N).isLt).2 (ix2 r q) = _
      rw [outsAt0_A m c ⟨n, hn⟩ h0 h1]
      dsimp only
      refine (congrFun (scratch_first (F := Ideal) c (grid0.coords ⟨n, hn⟩) (ms0_0 ⟨n, hn⟩) (hs0_0 ⟨n, hn⟩) (ms0_1 ⟨n, hn⟩) (hs0_1 ⟨n, hn⟩)
        (ms0_2 ⟨n, hn⟩) (hs0_2 ⟨n, hn⟩) (ms0_3 ⟨n, hn⟩) (hs0_3 ⟨n, hn⟩) scM0_0 (Memref.isWhole_whole _) ((hcond0_0 ⟨n, hn⟩).mpr h0)
        (fun h => h1 ((hcond0_1 ⟨n, hn⟩).mp h)) (iblk m c 0 ⟨n, hn⟩) (iblk m c 1 ⟨n, hn⟩) (iblk m c 2 ⟨n, hn⟩)) (ix2 r q)).trans ?_
      refine (loopAcc_full (grid0.coords ⟨n, hn⟩) (targBlk m c ⟨n, hn⟩) (predBlk m c ⟨n, hn⟩) (wordBlk m c ⟨n, hn⟩) _ r q).trans ?_
      rw [reset_apply, zero_add, hc0]
      have hb := block_sum m c ⟨n, hn⟩ r.val (n / 128 * 2048 + q.val)
      rw [show (⟨n, hn⟩ : Fin cfg0.N).val = n from rfl, h0, Nat.mul_zero, stat_zero, zero_add] at hb
      rw [h0]
      exact hb
    · have hprev : n - 1 < n := by omega
      have hq : (n - 1) / 128 = n / 128 := by omega
      have hr : 512 * ((n - 1) % 128 + 1) = 512 * (n % 128) := by omega
      have ihp := ih (n - 1) hprev (Nat.lt_of_le_of_lt (Nat.sub_le _ _) hn) r q
      rw [hq, hr] at ihp
      by_cases h1 : n % 128 = 127
      · show (outsAt0 (F := Ideal) m c (⟨n, hn⟩ : Fin cfg0.N).val (⟨n, hn⟩ : Fin cfg0.N).isLt).2 (ix2 r q) = _
        rw [outsAt0_C m c ⟨n, hn⟩ h0 h1]
        dsimp only
        refine (congrFun (scratch_last (F := Ideal) c (grid0.coords ⟨n, hn⟩) (ms0_0 ⟨n, hn⟩) (hs0_0 ⟨n, hn⟩) (ms0_1 ⟨n, hn⟩) (hs0_1 ⟨n, hn⟩)
          (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h))
          ((hcond0_1 ⟨n, hn⟩).mpr h1) (iblk m c 0 ⟨n, hn⟩) (iblk m c 1 ⟨n, hn⟩) (iblk m c 2 ⟨n, hn⟩) _) (ix2 r q)).trans ?_
        refine (loopAcc_full (grid0.coords ⟨n, hn⟩) (targBlk m c ⟨n, hn⟩) (predBlk m c ⟨n, hn⟩) (wordBlk m c ⟨n, hn⟩) _ r q).trans ?_
        rw [hc0]
        refine Eq.trans ?_ (block_sum m c ⟨n, hn⟩ r.val (n / 128 * 2048 + q.val))
        exact congrArg (· + _) ihp
      · show (outsAt0 (F := Ideal) m c (⟨n, hn⟩ : Fin cfg0.N).val (⟨n, hn⟩ : Fin cfg0.N).isLt).2 (ix2 r q) = _
        rw [outsAt0_B m c ⟨n, hn⟩ h0 h1]
        dsimp only
        refine (congrFun (scratch_mid (F := Ideal) c (grid0.coords ⟨n, hn⟩) (ms0_0 ⟨n, hn⟩) (hs0_0 ⟨n, hn⟩) (ms0_1 ⟨n, hn⟩) (hs0_1 ⟨n, hn⟩)
          (ms0_2 ⟨n, hn⟩) (hs0_2 ⟨n, hn⟩) (ms0_3 ⟨n, hn⟩) (hs0_3 ⟨n, hn⟩) scM0_0 (Memref.isWhole_whole _) (fun h => h0 ((hcond0_0 ⟨n, hn⟩).mp h))
          (fun h => h1 ((hcond0_1 ⟨n, hn⟩).mp h)) (iblk m c 0 ⟨n, hn⟩) (iblk m c 1 ⟨n, hn⟩) (iblk m c 2 ⟨n, hn⟩) _) (ix2 r q)).trans ?_
        refine (loopAcc_full (grid0.coords ⟨n, hn⟩) (targBlk m c ⟨n, hn⟩) (predBlk m c ⟨n, hn⟩) (wordBlk m c ⟨n, hn⟩) _ r q).trans ?_
        rw [hc0]
        refine Eq.trans ?_ (block_sum m c ⟨n, hn⟩ r.val (n / 128 * 2048 + q.val))
        exact congrArg (· + _) ihp

end Cert.KernelIdeal.Points

end
-- ==== Proof.FinalArray.lean ====
/-
  The output array the region leaves, and the program's result.

  A core's last point (point `128 k + 127` of core `k`) is the only one that stores the core's output block and
  the only one whose block is written back. By then the accumulator holds the four sums over all 65536 rows
  (`statAcc`), so entry `[k, 0, 0]` of the output is the sum over the core's 2048 stations of the station's
  loss and entry `[k, 1, 0]` the number of them present. The host then adds the two cores' entries and divides.
-/
import proofs.«412645_j54546084659704_2_alg».proof.Proof.PointAcc

set_option maxRecDepth 16384

noncomputable section

namespace Cert.KernelIdeal.Points

open Cert.KernelIdeal Cert.KernelIdeal.Gen Cert.KernelIdeal.Trip Cert.KernelIdeal.Host Cert.KernelIdeal.Finalize Cert.SegStats
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ)

/-- Core `k`'s accumulator once all rows are read: row `r`, column `q` holds sum `r` of station `2048 k + q`. -/
def statAcc (c : Dev nD) (k : ℕ) : Vec Ideal S8x2048 .f32 := fun z =>
  stat (predArr m c) (targArr m c) (wordArr m c) (z 0).val (k * 2048 + (z 1).val) 65536

theorem statAcc_apply (c : Dev nD) (k : ℕ) (r : Fin 8) (q : Fin 2048) :
    statAcc m c k (ix2 r q) = stat (predArr m c) (targArr m c) (wordArr m c) r.val (k * 2048 + q.val) 65536 := rfl

/-- At a core's last point the accumulator is `statAcc`. -/
theorem acc_last (c : Dev nD) (n : ℕ) (hn : n < cfg0.N) (h1 : n % 128 = 127) :
    accAfter m c n hn = statAcc m c (n / 128) := by
  funext z
  obtain ⟨r, q, rfl⟩ : ∃ (r : Fin 8) (q : Fin 2048), z = ix2 r q := ⟨z 0, z 1, eq_ix2 z⟩
  refine (acc_point m c n hn r q).trans ?_
  rw [h1, statAcc_apply]

/-- and the output block it stores is read off `statAcc`. -/
theorem out_last_eq (c : Dev nD) (t : Fin cfg0.N) (h1 : t.val % 128 = 127) :
    (outsAt0 (F := Ideal) m c t.val t.isLt).1 = View.canon (outPieces (statAcc m c (t.val / 128))) := by
  have h0 : ¬ t.val % 128 = 0 := by omega
  have e2 : accAfter m c t.val t.isLt
      = sout0_C_0 c (grid0.coords t) (ms0_0 t) (hs0_0 t) (ms0_1 t) (hs0_1 t) (ms0_2 t) (hs0_2 t) (ms0_3 t) (hs0_3 t) scM0_0
          (Memref.isWhole_whole _) (fun h => h0 ((hcond0_0 t).mp h)) ((hcond0_1 t).mpr h1) (iblk m c 0 t) (iblk m c 1 t) (iblk m c 2 t)
          (outsAt0 m c (t.val - 1) (Nat.lt_of_le_of_lt (Nat.sub_le _ _) t.isLt)).2 := by
    show (outsAt0 (F := Ideal) m c t.val t.isLt).2 = _
    rw [outsAt0_C m c t h0 h1]
  rw [outsAt0_C m c t h0 h1]
  dsimp only
  refine (out_last (F := Ideal) c (grid0.coords t) (ms0_0 t) (hs0_0 t) (ms0_1 t) (hs0_1 t) (ms0_2 t) (hs0_2 t) (ms0_3 t) (hs0_3 t) scM0_0
    (Memref.isWhole_whole _) (fun h => h0 ((hcond0_0 t).mp h)) ((hcond0_1 t).mpr h1) (iblk m c 0 t) (iblk m c 1 t) (iblk m c 2 t) _).trans ?_
  refine congrArg (fun a => View.canon (outPieces a)) ?_
  refine (scratch_last (F := Ideal) c (grid0.coords t) (ms0_0 t) (hs0_0 t) (ms0_1 t) (hs0_1 t) (ms0_2 t) (hs0_2 t) (ms0_3 t) (hs0_3 t) scM0_0
    (Memref.isWhole_whole _) (fun h => h0 ((hcond0_0 t).mp h)) ((hcond0_1 t).mpr h1) (iblk m c 0 t) (iblk m c 1 t) (iblk m c 2 t) _).symm.trans ?_
  exact e2.symm.trans (acc_last m c t.val t.isLt h1)

/-- Row `ρ` of an accumulator, loaded, at lane `q`. -/
theorem row0_apply (A : Vec Ideal S8x2048 .f32) (q : Fin 2048) : View.ld A accRow0 (ix2 0 q) = A (ix2 0 q) :=
  congrArg A (funext fun a => Fin.ext (by
    match a with
    | ⟨0, _⟩ => rfl
    | ⟨1, _⟩ => show 0 + 1 * q.val = q.val; omega))
theorem row1_apply (A : Vec Ideal S8x2048 .f32) (q : Fin 2048) : View.ld A accRow1 (ix2 0 q) = A (ix2 1 q) :=
  congrArg A (funext fun a => Fin.ext (by
    match a with
    | ⟨0, _⟩ => rfl
    | ⟨1, _⟩ => show 0 + 1 * q.val = q.val; omega))
theorem row2_apply (A : Vec Ideal S8x2048 .f32) (q : Fin 2048) : View.ld A accRow2 (ix2 0 q) = A (ix2 2 q) :=
  congrArg A (funext fun a => Fin.ext (by
    match a with
    | ⟨0, _⟩ => rfl
    | ⟨1, _⟩ => show 0 + 1 * q.val = q.val; omega))
theorem row3_apply (A : Vec Ideal S8x2048 .f32) (q : Fin 2048) : View.ld A accRow3 (ix2 0 q) = A (ix2 3 q) :=
  congrArg A (funext fun a => Fin.ext (by
    match a with
    | ⟨0, _⟩ => rfl
    | ⟨1, _⟩ => show 0 + 1 * q.val = q.val; omega))

/-- Entry `[0, 0, 0]` of the stored block: under the second store, not under the first. -/
theorem outPieces_total (A : Vec Ideal S8x2048 .f32) :
    View.canon (outPieces A) (ix3 0 0 0)
      = ∑ q : Fin 2048, stationValue (A (ix2 0 q)) (A (ix2 1 q)) (A (ix2 2 q)) (A (ix2 3 q)) := by
  unfold outPieces
  rw [View.canon_cons_of_not_mem _ _ (by
    intro h
    have h' : (ix3 0 0 0 : S1x8x128.Idx)
        ∈ (Rect.unit (s := S1x8x128) ![0, 1, 0] S1x1x1.size inb_S1x8x128_S1x1x1_0_1_0).set := h
    have h1 := (Rect.mem_set_unit.mp h') (1 : Fin 3)
    have : (1 : ℕ) ≤ 0 := h1.1
    omega)]
  have e : (ix3 0 0 0 : S1x8x128.Idx)
      = (Rect.unit (s := S1x8x128) ![0, 0, 0] S1x1x1.size inb_S1x8x128_S1x1x1_0_0_0).emb (ix3 0 0 0) :=
    funext fun a => Fin.ext (by
      match a with
      | ⟨0, _⟩ => rfl
      | ⟨1, _⟩ => rfl
      | ⟨2, _⟩ => rfl)
  refine (congrArg _ e).trans ((View.canon_cons_emb _ _ _ _).trans ?_)
  refine (total_apply _ _ _ _).trans ?_
  refine Finset.sum_congr rfl fun q _ => ?_
  rw [row0_apply, row1_apply, row2_apply, row3_apply]

/-- Entry `[0, 1, 0]`: under the first store. -/
theorem outPieces_present (A : Vec Ideal S8x2048 .f32) :
    View.canon (outPieces A) (ix3 0 1 0) = ∑ q : Fin 2048, stationPresent (A (ix2 0 q)) := by
  unfold outPieces
  have e : (ix3 0 1 0 : S1x8x128.Idx)
      = (Rect.unit (s := S1x8x128) ![0, 1, 0] S1x1x1.size inb_S1x8x128_S1x1x1_0_1_0).emb (ix3 0 0 0) :=
    funext fun a => Fin.ext (by
      match a with
      | ⟨0, _⟩ => rfl
      | ⟨1, _⟩ => rfl
      | ⟨2, _⟩ => rfl)
  refine (congrArg _ e).trans ((View.canon_cons_emb _ _ _ _).trans ?_)
  refine (present_apply _).trans ?_
  refine Finset.sum_congr rfl fun q _ => ?_
  rw [row0_apply]

/-- The output array: plane `k` is core `k`'s stored block. -/
def outArr (c : Dev nD) : FVec Ideal S2x8x128 .f32 := fun y =>
  View.canon (outPieces (statAcc m c (y 0).val)) (ix3 (0 : Fin 1) (y 1) (y 2))

/-- The output window: written back only at a core's last point, whose block is plane `t / 128`. -/
theorem out_window : ∀ t : Fin cfg0.N, ((cfg0.win 3).flush t = true → t.val % 128 = 127)
    ∧ win0_3.index t (0 : Fin 3) = t.val / 128 ∧ win0_3.index t (1 : Fin 3) = 0 ∧ win0_3.index t (2 : Fin 3) = 0 :=
  (by decide +kernel : ∀ t : Fin grid0.N, ((cfg0.win 3).flush t = true → t.val % 128 = 127)
    ∧ win0_3.index t (0 : Fin 3) = t.val / 128 ∧ win0_3.index t (1 : Fin 3) = 0 ∧ win0_3.index t (2 : Fin 3) = 0)

theorem flush_last : ∀ t : Fin cfg0.N, t.val % 128 = 127 → (cfg0.win 3).flush t = true :=
  (by decide +kernel : ∀ t : Fin grid0.N, t.val % 128 = 127 → (cfg0.win 3).flush t = true)

/-- What a write-back writes is its block of `outArr`. -/
theorem flushed_out (c : Dev nD) (t : Fin cfg0.N) (hf : (cfg0.win 3).flush t = true) :
    (dats (F := Ideal) m 0 c).flushed 3 t = ((cfg0.win 3).blk t).view.read (Elt Ideal) (outArr m c) := by
  obtain ⟨hfl, e0, e1, e2⟩ := out_window t
  have h1 := hfl hf
  have hN : t.val < 256 := lt_of_lt_of_eq t.isLt N_eq
  show (cfg0.win 3).cut (grid0.coords t) ((dats m 0 c).after 3 t) = _
  rw [after0_3, out_last_eq m c t h1]
  funext j
  show View.canon (outPieces (statAcc m c (t.val / 128))) j = outArr m c (((cfg0.win 3).blk t).view.emb j)
  have he : ((cfg0.win 3).blk t).view.emb j = ix3 (⟨t.val / 128, by omega⟩ : Fin 2) (j 1) (j 2) :=
    funext fun a => Fin.ext (by
      match a with
      | ⟨0, _⟩ =>
        show win0_3.index t (0 : Fin 3) * 1 + 1 * (j 0).val = t.val / 128
        have hj : (j 0).val < 1 := (j 0).isLt
        omega
      | ⟨1, _⟩ =>
        show win0_3.index t (1 : Fin 3) * 8 + 1 * (j 1).val = (j 1).val
        omega
      | ⟨2, _⟩ =>
        show win0_3.index t (2 : Fin 3) * 128 + 1 * (j 2).val = (j 2).val
        omega)
  rw [he]
  show _ = View.canon (outPieces (statAcc m c (t.val / 128))) (ix3 (0 : Fin 1) (j 1) (j 2))
  refine congrArg _ (funext fun a => Fin.ext ?_)
  match a with
  | ⟨0, _⟩ =>
    show (j 0).val = 0
    have hj : (j 0).val < 1 := (j 0).isLt
    omega
  | ⟨1, _⟩ => rfl
  | ⟨2, _⟩ => rfl

/-- An index of the array is in point `t`'s block iff each coordinate is in the block's range on its axis. -/
theorem mem_outBlk (t : Fin cfg0.N) (i : S2x8x128.Idx) :
    i ∈ ((cfg0.win 3).blk t).view.set
      ↔ ∀ a : Fin 3, win0_3.index t a * S1x8x128.size a ≤ (i a).val ∧ (i a).val < win0_3.index t a * S1x8x128.size a + S1x8x128.size a := by
  show i ∈ ((View.whole main_call0_v3).slice (win0_3.rect t)).set ↔ _
  rw [View.set_slice_whole, Rect.mem_set_unit]
  exact Iff.rfl

/-- Every entry of the output lies in the block of its plane's last point. -/
theorem out_cover (i : S2x8x128.Idx) : ∃ t : Fin cfg0.N, (cfg0.win 3).flush t = true ∧ i ∈ ((cfg0.win 3).blk t).view.set := by
  have hi0 : (i 0).val < 2 := (i 0).isLt
  have hi1 : (i 1).val < 8 := (i 1).isLt
  have hi2 : (i 2).val < 128 := (i 2).isLt
  have hlt : 128 * (i 0).val + 127 < cfg0.N := by rw [N_eq]; omega
  refine ⟨⟨128 * (i 0).val + 127, hlt⟩, flush_last _ (by show (128 * (i 0).val + 127) % 128 = 127; omega), ?_⟩
  obtain ⟨-, e0, e1, e2⟩ := out_window ⟨128 * (i 0).val + 127, hlt⟩
  have e0' : win0_3.index ⟨128 * (i 0).val + 127, hlt⟩ (0 : Fin 3) = (i 0).val := by
    rw [e0]; show (128 * (i 0).val + 127) / 128 = (i 0).val; omega
  rw [mem_outBlk]
  intro a
  match a with
  | ⟨0, _⟩ =>
    show win0_3.index ⟨128 * (i 0).val + 127, hlt⟩ (0 : Fin 3) * 1 ≤ (i 0).val ∧ (i 0).val < win0_3.index ⟨128 * (i 0).val + 127, hlt⟩ (0 : Fin 3) * 1 + 1
    omega
  | ⟨1, _⟩ =>
    show win0_3.index ⟨128 * (i 0).val + 127, hlt⟩ (1 : Fin 3) * 8 ≤ (i 1).val ∧ (i 1).val < win0_3.index ⟨128 * (i 0).val + 127, hlt⟩ (1 : Fin 3) * 8 + 8
    omega
  | ⟨2, _⟩ =>
    show win0_3.index ⟨128 * (i 0).val + 127, hlt⟩ (2 : Fin 3) * 128 ≤ (i 2).val ∧ (i 2).val < win0_3.index ⟨128 * (i 0).val + 127, hlt⟩ (2 : Fin 3) * 128 + 128
    omega

/-- The output array after the run. -/
theorem final_out (c : Dev nD) : (dats (F := Ideal) m 0 c).arrAt 3 cfg0.N = outArr m c :=
  (dats m 0 c).arrAt_eq_of_cover 3 (outArr m c) (fun t hf => flushed_out m c t hf) out_cover

/-- The loss of station `s` and whether it is present, from the sums over all rows. -/
abbrev lossOf (c : Dev nD) (s : ℕ) : EReal :=
  stationValue (stat (predArr m c) (targArr m c) (wordArr m c) 0 s 65536) (stat (predArr m c) (targArr m c) (wordArr m c) 1 s 65536)
    (stat (predArr m c) (targArr m c) (wordArr m c) 2 s 65536) (stat (predArr m c) (targArr m c) (wordArr m c) 3 s 65536)
abbrev presentOf (c : Dev nD) (s : ℕ) : EReal := stationPresent (stat (predArr m c) (targArr m c) (wordArr m c) 0 s 65536)

theorem outArr_total (c : Dev nD) (k : Fin 2) :
    outArr m c (ix3 k 0 0) = ∑ q : Fin 2048, lossOf m c (k.val * 2048 + q.val) :=
  outPieces_total (statAcc m c k.val)

theorem outArr_present (c : Dev nD) (k : Fin 2) :
    outArr m c (ix3 k 1 0) = ∑ q : Fin 2048, presentOf m c (k.val * 2048 + q.val) :=
  outPieces_present (statAcc m c k.val)

/-- The program's result: the two cores' loss totals over the larger of the two cores' counts and one. -/
theorem kernel_value (c : Dev nD) (j : S_.Idx) :
    Pipeline.afterTail₀ cfgs (dats m) 0 (V0 m) [hostOps1] c main_v0 j
      = FloatOps.hostDivf (F := Ideal) (φ := .f32)
          ((∑ q : Fin 2048, lossOf m c (0 * 2048 + q.val)) + ∑ q : Fin 2048, lossOf m c (1 * 2048 + q.val))
          (FloatOps.maximumf (F := Ideal) (φ := .f32)
            ((∑ q : Fin 2048, presentOf m c (0 * 2048 + q.val)) + ∑ q : Fin 2048, presentOf m c (1 * 2048 + q.val))
            (lit 0x3F800000#32)) := by
  refine (tail_result m c (outArr m c) (final_out m c) j).trans ?_
  rw [outArr_total m c 0, outArr_total m c 1, outArr_present m c 0, outArr_present m c 1]
  rfl

end Cert.KernelIdeal.Points

end
-- ==== Proof.lean ====
/-
  A Pallas kernel that scores per-station regression quality against its jnp reference, over the extended reals.

  Each of 8388608 samples has a prediction, a target and a station word. For each of 4096 stations the programs
  need four sums over that station's samples (the count, ∑ t, ∑ t², ∑ (t − p)²); from them a station's loss, and
  the result is the losses summed over the stations present, divided by their number (at least one).
  The reference forms the four sums by scatter-addition: an update whose station word names no station lands
  nowhere. The kernel forms them with matrix products: for every chunk of rows it multiplies the four data rows
  by a table holding a one where a sample's word equals the column's station, and accumulates over all row
  chunks and row blocks; a word that names no station matches no column. So both are
  `∑ n, quantity r (t n) (p n) * member (w n) s`, and no bound on the station words is needed. The kernel splits
  the stations between two cores, each summing the losses and the presences of its 2048 stations; the host adds
  the two halves, which is the reference's sum over all 4096 since addition of extended reals is associative and
  commutative. A change of float format is the identity at this reading, so the products' narrower operands
  change nothing, and no law used here needs the inputs finite: the precondition is never opened.

  The kernel's frames are the generated ones; the reference's is its run with the result dropped. The kernel's
  value is read off its frame run: the accumulator through the row-chunk loop (LoopAcc, Cases, BlockSum), point
  by point (PointAcc), the output array and the host tail (FinalArray, HostSide); the reference's value is
  RefSide. The pass that idealizes the kernel rewrote nothing, so `preserves` asks nothing.
-/
import proofs.«412645_j54546084659704_2_alg».proof.Defs
import proofs.«412645_j54546084659704_2_alg».proof.Proof.Gen.Kernel
import proofs.«412645_j54546084659704_2_alg».proof.Proof.Gen.Kernel.Skeleton
import proofs.«412645_j54546084659704_2_alg».proof.Proof.Gen.Kernel.Loops
import proofs.«412645_j54546084659704_2_alg».proof.Proof.Gen.Kernel.Launch
import proofs.«412645_j54546084659704_2_alg».proof.Proof.Gen.Kernel.Points
import proofs.«412645_j54546084659704_2_alg».proof.Proof.Gen.Kernel.Frame
import proofs.«412645_j54546084659704_2_alg».proof.Proof.Gen.KernelIdeal
import proofs.«412645_j54546084659704_2_alg».proof.Proof.Gen.KernelIdeal.Skeleton
import proofs.«412645_j54546084659704_2_alg».proof.Proof.Gen.KernelIdeal.Loops
import proofs.«412645_j54546084659704_2_alg».proof.Proof.Gen.KernelIdeal.Launch
import proofs.«412645_j54546084659704_2_alg».proof.Proof.Gen.KernelIdeal.Points
import proofs.«412645_j54546084659704_2_alg».proof.Proof.Gen.KernelIdeal.Frame
import proofs.«412645_j54546084659704_2_alg».proof.Proof.Gen.ReferenceIdeal
import proofs.«412645_j54546084659704_2_alg».proof.Proof.Gen.Pre_finite_inputs
import proofs.«412645_j54546084659704_2_alg».proof.Proof.RefRun
import proofs.«412645_j54546084659704_2_alg».proof.Proof.RefRead
import proofs.«412645_j54546084659704_2_alg».proof.Proof.RefSide
import proofs.«412645_j54546084659704_2_alg».proof.Proof.FinalArray
import Idealize.ShloMosaic.Adequacy
import Idealize.ShloMosaic.Init

noncomputable section

namespace Cert.Proof

open Idealize.ShloMosaic Idealize.ShloMosaic.TcCoe Idealize.SL.Sem Cert.SegStats
open scoped BigOperators

/-- A sum over the 4096 stations is the sum over the first core's 2048 plus the sum over the second core's. -/
theorem sum_halves (f : ℕ → EReal) :
    (∑ s : Fin 4096, f s.val) = (∑ q : Fin 2048, f (0 * 2048 + q.val)) + ∑ q : Fin 2048, f (1 * 2048 + q.val) := by
  have h := Fin.sum_univ_add (fun s : Fin (2048 + 2048) => f s.val)
  simp only [Fin.coe_castAdd, Fin.coe_natAdd] at h
  refine h.trans ?_
  have e0 : ∀ q : Fin 2048, f q.val = f (0 * 2048 + q.val) := fun q => by rw [Nat.zero_mul, Nat.zero_add]
  have e1 : ∀ q : Fin 2048, f (2048 + q.val) = f (1 * 2048 + q.val) := fun q => by rw [Nat.one_mul]
  rw [Finset.sum_congr rfl (fun q _ => e0 q), Finset.sum_congr rfl (fun q _ => e1 q)]

/-- The kernel's run, with its result named and its arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v0)
            = Pipeline.afterTail₀ Cert.KernelIdeal.cfgs (Cert.KernelIdeal.Gen.dats m) 0 (Cert.KernelIdeal.Gen.V0 m)
                [Cert.KernelIdeal.Gen.hostOps1] c Cert.KernelIdeal.main_v0
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c =>
      ⟨(h c).2 Cert.KernelIdeal.main_v0 (Pipeline.mem_restRefs_of Cert.KernelIdeal.main_v0 (by decide) (by decide)),
       ((h c).2 Cert.KernelIdeal.main_arg0 (Pipeline.mem_restRefs_of Cert.KernelIdeal.main_arg0 (by decide) (by decide))).trans
          (Cert.KernelIdeal.Gen.W_main_arg0 m (Cert.KernelIdeal.Gen.dats m) c),
       ((h c).2 Cert.KernelIdeal.main_arg1 (Pipeline.mem_restRefs_of Cert.KernelIdeal.main_arg1 (by decide) (by decide))).trans
          (Cert.KernelIdeal.Gen.W_main_arg1 m (Cert.KernelIdeal.Gen.dats m) c),
       ((h c).2 Cert.KernelIdeal.main_arg2 (Pipeline.mem_restRefs_of Cert.KernelIdeal.main_arg2 (by decide) (by decide))).trans
          (Cert.KernelIdeal.Gen.W_main_arg2 m (Cert.KernelIdeal.Gen.dats m) c)⟩)
    (Cert.KernelIdeal.Gen.run_main m ρ)

theorem frame_p : Cert.frame_Kernel :=
  fun m ρ _ => Cert.Kernel.Gen.frame m ρ

theorem frame_pi : Cert.frame_KernelIdeal :=
  fun m ρ _ => Cert.KernelIdeal.Gen.frame m ρ

theorem frame_ri : Cert.frame_ReferenceIdeal :=
  fun m ρ _ => (θ_run Cert.ReferenceIdeal.defs _ _).mono (fun _ h c => (h c).2)
    (Cert.ReferenceIdeal.ValueP.run (F := Ideal) m ρ)

/-- Both programs end at the losses summed over the stations present, divided by their number. -/
theorem algebraic : Cert.algebraic_KernelIdeal_ReferenceIdeal := by
  intro m ρ m' ρ' _ hagree
  refine ⟨fun c => Pipeline.afterTail₀ Cert.KernelIdeal.cfgs (Cert.KernelIdeal.Gen.dats m) 0 (Cert.KernelIdeal.Gen.V0 m)
      [Cert.KernelIdeal.Gen.hostOps1] c Cert.KernelIdeal.main_v0, kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v42_eq, (hagree c).1, (hagree c).2.1, (hagree c).2.2]
  funext j
  refine (Cert.ReferenceIdeal.RefSide.ref_result _ _ _ j).trans ?_
  refine Eq.trans ?_ (Cert.KernelIdeal.Points.kernel_value m c j).symm
  rw [show lit 0x00000000#32 = 0 from Ideal.ofBits_zero_f32, zero_add, zero_add, sum_halves, sum_halves]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_p, Cert.Proof.frame_pi, Cert.Proof.frame_ri, trivial, Cert.Proof.algebraic⟩

end
